-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x8192 : Shape := ⟨2, ![8192, 8192]⟩
abbrev S1024x64 : Shape := ⟨2, ![1024, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S64x40 .f32) (main_arg8 : FVec F S40 .f32) (main_v33 : IVec S_ 1) : IVec S_ 1 :=
  let main_v34 : FVec F S64x40 .f32 := Host.absf main_arg7
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg8
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg4 : FVec F S64 .f32) (main_arg5 : FVec F S3x64x64 .f32) (main_arg6 : FVec F S3x64 .f32) (main_arg7 : FVec F S64x40 .f32) (main_arg8 : FVec F S40 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg5
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg6
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x8192 .f32) (main_arg2 : FVec F S8192x8192 .f32) (main_arg3 : FVec F S1024x64 .f32) (main_arg4 : FVec F S64 .f32) (main_arg5 : FVec F S3x64x64 .f32) (main_arg6 : FVec F S3x64 .f32) (main_arg7 : FVec F S64x40 .f32) (main_arg8 : FVec F S40 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S8192x8192 : Shape := ⟨2, ![8192, 8192]⟩
abbrev S1024x64 : Shape := ⟨2, ![1024, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S1x64 : Shape := ⟨2, ![1, 64]⟩
abbrev S8192x64 : Shape := ⟨2, ![8192, 64]⟩
abbrev S1024x1024 : Shape := ⟨2, ![1024, 1024]⟩
abbrev S1x64x64 : Shape := ⟨3, ![1, 64, 64]⟩
abbrev S64x64 : Shape := ⟨2, ![64, 64]⟩
abbrev S1024x8192 : Shape := ⟨2, ![1024, 8192]⟩
abbrev S1x40 : Shape := ⟨2, ![1, 40]⟩
abbrev S8192x40 : Shape := ⟨2, ![8192, 40]⟩
abbrev S1024x40 : Shape := ⟨2, ![1024, 40]⟩

abbrev nBuf : Space → Nat
  | .hbm => 42
  | .vmem => 40
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x8192, .f32⟩
  | .hbm, ⟨3, _⟩ => ⟨S1024x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x40, .f32⟩
  | .hbm, ⟨8, _⟩ => ⟨S40, .f32⟩
  | .hbm, ⟨9, _⟩ => ⟨S8192x8192, .bf16⟩
  | .hbm, ⟨10, _⟩ => ⟨S8192x1024, .bf16⟩
  | .hbm, ⟨11, _⟩ => ⟨S1024x64, .bf16⟩
  | .hbm, ⟨12, _⟩ => ⟨S1x64, .f32⟩
  | .hbm, ⟨13, _⟩ => ⟨S8192x64, .f32⟩
  | .hbm, ⟨14, _⟩ => ⟨S1x64x64, .f32⟩
  | .hbm, ⟨15, _⟩ => ⟨S64x64, .f32⟩
  | .hbm, ⟨16, _⟩ => ⟨S1x64, .f32⟩
  | .hbm, ⟨17, _⟩ => ⟨S64, .f32⟩
  | .hbm, ⟨18, _⟩ => ⟨S8192x64, .bf16⟩
  | .hbm, ⟨19, _⟩ => ⟨S64x64, .bf16⟩
  | .hbm, ⟨20, _⟩ => ⟨S1x64, .f32⟩
  | .hbm, ⟨21, _⟩ => ⟨S8192x64, .f32⟩
  | .hbm, ⟨22, _⟩ => ⟨S1x64x64, .f32⟩
  | .hbm, ⟨23, _⟩ => ⟨S64x64, .f32⟩
  | .hbm, ⟨24, _⟩ => ⟨S1x64, .f32⟩
  | .hbm, ⟨25, _⟩ => ⟨S64, .f32⟩
  | .hbm, ⟨26, _⟩ => ⟨S8192x64, .bf16⟩
  | .hbm, ⟨27, _⟩ => ⟨S64x64, .bf16⟩
  | .hbm, ⟨28, _⟩ => ⟨S1x64, .f32⟩
  | .hbm, ⟨29, _⟩ => ⟨S8192x64, .f32⟩
  | .hbm, ⟨30, _⟩ => ⟨S1x64x64, .f32⟩
  | .hbm, ⟨31, _⟩ => ⟨S64x64, .f32⟩
  | .hbm, ⟨32, _⟩ => ⟨S1x64, .f32⟩
  | .hbm, ⟨33, _⟩ => ⟨S64, .f32⟩
  | .hbm, ⟨34, _⟩ => ⟨S8192x64, .bf16⟩
  | .hbm, ⟨35, _⟩ => ⟨S64x64, .bf16⟩
  | .hbm, ⟨36, _⟩ => ⟨S1x64, .f32⟩
  | .hbm, ⟨37, _⟩ => ⟨S8192x64, .f32⟩
  | .hbm, ⟨38, _⟩ => ⟨S8192x64, .bf16⟩
  | .hbm, ⟨39, _⟩ => ⟨S64x40, .bf16⟩
  | .hbm, ⟨40, _⟩ => ⟨S1x40, .f32⟩
  | .hbm, ⟨41, _⟩ => ⟨S8192x40, .f32⟩
  | .local _ .vmem, ⟨0, _⟩ => ⟨S1024x1024, .bf16⟩
  | .local _ .vmem, ⟨1, _⟩ => ⟨S1024x1024, .bf16⟩
  | .local _ .vmem, ⟨2, _⟩ => ⟨S1024x64, .bf16⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S1024x8192, .bf16⟩
  | .local _ .vmem, ⟨7, _⟩ => ⟨S1024x8192, .bf16⟩
  | .local _ .vmem, ⟨8, _⟩ => ⟨S8192x64, .bf16⟩
  | .local _ .vmem, ⟨9, _⟩ => ⟨S1024x64, .f32⟩
  | .local _ .vmem, ⟨10, _⟩ => ⟨S1024x64, .f32⟩
  | .local _ .vmem, ⟨11, _⟩ => ⟨S64x64, .bf16⟩
  | .local _ .vmem, ⟨12, _⟩ => ⟨S1x64, .f32⟩
  | .local _ .vmem, ⟨13, _⟩ => ⟨S1024x64, .f32⟩
  | .local _ .vmem, ⟨14, _⟩ => ⟨S1024x64, .f32⟩
  | .local _ .vmem, ⟨15, _⟩ => ⟨S1024x8192, .bf16⟩
  | .local _ .vmem, ⟨16, _⟩ => ⟨S1024x8192, .bf16⟩
  | .local _ .vmem, ⟨17, _⟩ => ⟨S8192x64, .bf16⟩
  | .local _ .vmem, ⟨18, _⟩ => ⟨S1024x64, .f32⟩
  | .local _ .vmem, ⟨19, _⟩ => ⟨S1024x64, .f32⟩
  | .local _ .vmem, ⟨20, _⟩ => ⟨S64x64, .bf16⟩
  | .local _ .vmem, ⟨21, _⟩ => ⟨S1x64, .f32⟩
  | .local _ .vmem, ⟨22, _⟩ => ⟨S1024x64, .f32⟩
  | .local _ .vmem, ⟨23, _⟩ => ⟨S1024x64, .f32⟩
  | .local _ .vmem, ⟨24, _⟩ => ⟨S1024x8192, .bf16⟩
  | .local _ .vmem, ⟨25, _⟩ => ⟨S1024x8192, .bf16⟩
  | .local _ .vmem, ⟨26, _⟩ => ⟨S8192x64, .bf16⟩
  | .local _ .vmem, ⟨27, _⟩ => ⟨S1024x64, .f32⟩
  | .local _ .vmem, ⟨28, _⟩ => ⟨S1024x64, .f32⟩
  | .local _ .vmem, ⟨29, _⟩ => ⟨S64x64, .bf16⟩
  | .local _ .vmem, ⟨30, _⟩ => ⟨S1x64, .f32⟩
  | .local _ .vmem, ⟨31, _⟩ => ⟨S1024x64, .f32⟩
  | .local _ .vmem, ⟨32, _⟩ => ⟨S1024x64, .f32⟩
  | .local _ .vmem, ⟨33, _⟩ => ⟨S1024x8192, .bf16⟩
  | .local _ .vmem, ⟨34, _⟩ => ⟨S1024x8192, .bf16⟩
  | .local _ .vmem, ⟨35, _⟩ => ⟨S8192x64, .bf16⟩
  | .local _ .vmem, ⟨36, _⟩ => ⟨S64x40, .bf16⟩
  | .local _ .vmem, ⟨37, _⟩ => ⟨S1x40, .f32⟩
  | .local _ .vmem, ⟨38, _⟩ => ⟨S1024x40, .f32⟩
  | .local _ .vmem, ⟨39, _⟩ => ⟨S1024x40, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem4_1 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x40 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1024x40 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  bitsLt_bf16_f32 : FTy.bits .bf16 < FTy.bits .f32
  shapeCasts_S64_S1x64 : S64.ShapeCasts S1x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S40_S1x40 : S40.ShapeCasts S1x40
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1024x40 : S1x40.Broadcasts S1024x40
  inb_S1024x40_S1024x40_0_0 : ∀ a, (![0, 0] : Fin 2 → Nat) a + S1024x40.size a ≤ S1024x40.size a
  h_S1024x40 : 0 < S1024x40.numel
  dot_S1024x1024_S1024x64_S1024x64_1_0_0_1_n_n_wf : DotDims.WF S1024x1024 S1024x64 S1024x64 [1] [0] [0] [1] [] []
  dot_S1024x8192_S8192x64_S1024x64_1_0_0_1_n_n_wf : DotDims.WF S1024x8192 S8192x64 S1024x64 [1] [0] [0] [1] [] []
  dot_S1024x64_S64x64_S1024x64_1_0_0_1_n_n_wf : DotDims.WF S1024x64 S64x64 S1024x64 [1] [0] [0] [1] [] []
  dot_S1024x64_S64x40_S1024x40_1_0_0_1_n_n_wf : DotDims.WF S1024x64 S64x40 S1024x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .bf16 = 32 ∨ (Rect.block (s := S1024x64) S1024x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x8192.size a ≤ S8192x8192.size a
  hwx1_0 : ∀ i : grid1.Coords, EltTy.bits .bf16 = 32 ∨ (Rect.block (s := S8192x8192) S1024x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .bf16 = 32 ∨ (Rect.block (s := S8192x64) S8192x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S8192x64.size a
  hwx1_5 : ∀ i : grid1.Coords, EltTy.bits .f32 = 32 ∨ (Rect.block (s := S8192x64) S1024x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x8192.size a ≤ S8192x8192.size a
  hwx2_0 : ∀ i : grid2.Coords, EltTy.bits .bf16 = 32 ∨ (Rect.block (s := S8192x8192) S1024x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .bf16 = 32 ∨ (Rect.block (s := S8192x64) S8192x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S8192x64.size a
  hwx2_2 : ∀ i : grid2.Coords, EltTy.bits .f32 = 32 ∨ (Rect.block (s := S8192x64) S1024x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x64.size a ≤ S8192x64.size a
  hwx2_5 : ∀ i : grid2.Coords, EltTy.bits .f32 = 32 ∨ (Rect.block (s := S8192x64) S1024x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x8192.size a ≤ S8192x8192.size a
  hwx3_0 : ∀ i : grid3.Coords, EltTy.bits .bf16 = 32 ∨ (Rect.block (s := S8192x8192) S1024x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S8192x64.size a
  hwx3_1 : ∀ i : grid3.Coords, EltTy.bits .bf16 = 32 ∨ (Rect.block (s := S8192x64) S8192x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S8192x64.size a
  hwx3_2 : ∀ i : grid3.Coords, EltTy.bits .f32 = 32 ∨ (Rect.block (s := S8192x64) S1024x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .bf16 = 32 ∨ (Rect.block (s := S64x64) S64x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x64.size a ≤ S8192x64.size a
  hwx3_5 : ∀ i : grid3.Coords, EltTy.bits .f32 = 32 ∨ (Rect.block (s := S8192x64) S1024x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x8192.size a ≤ S8192x8192.size a
  hwx4_0 : ∀ i : grid4.Coords, EltTy.bits .bf16 = 32 ∨ (Rect.block (s := S8192x8192) S1024x8192.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S8192x64.size a
  hwx4_1 : ∀ i : grid4.Coords, EltTy.bits .bf16 = 32 ∨ (Rect.block (s := S8192x64) S8192x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x40.size a ≤ S64x40.size a
  hwx4_2 : ∀ i : grid4.Coords, EltTy.bits .bf16 = 32 ∨ (Rect.block (s := S64x40) S64x40.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x40.size a ≤ S1x40.size a
  hwx4_3 : ∀ i : grid4.Coords, EltTy.bits .f32 = 32 ∨ (Rect.block (s := S1x40) S1x40.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x40.size a ≤ S8192x40.size a
  hwx4_4 : ∀ i : grid4.Coords, EltTy.bits .f32 = 32 ∨ (Rect.block (s := S8192x40) S1024x40.size (cc4_transform_4 i) (hinb4_4 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x8192_S8192x64_S1024x64_1_0_0_1_n_n : DotDims S1024x8192 S8192x64 S1024x64 where
  lhsContracting := [1]
  rhsContracting := [0]
  lhsNonContracting := [0]
  rhsNonContracting := [1]
  lhsBatch := []
  rhsBatch := []
  wf := dot_S1024x8192_S8192x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x40_S1024x40_1_0_0_1_n_n : DotDims S1024x64 S64x40 S1024x40 where
  lhsContracting := [1]
  rhsContracting := [0]
  lhsNonContracting := [0]
  rhsNonContracting := [1]
  lhsBatch := []
  rhsBatch := []
  wf := dot_S1024x64_S64x40_S1024x40_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0) S1024x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S1024x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v0) S1024x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S8192x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1024x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v26) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v27) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v28) S1024x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v0) S1024x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S8192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S64x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v31) S1x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v32) S1024x40.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S8192x1024 : Shape := ⟨2, ![8192, 1024]⟩
abbrev S8192x8192 : Shape := ⟨2, ![8192, 8192]⟩
abbrev S1024x64 : Shape := ⟨2, ![1024, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S8192x64 : Shape := ⟨2, ![8192, 64]⟩
abbrev S1x64 : Shape := ⟨2, ![1, 64]⟩
abbrev S1x64x64 : Shape := ⟨3, ![1, 64, 64]⟩
abbrev S64x64 : Shape := ⟨2, ![64, 64]⟩
abbrev S_ : Shape := ⟨0, ![]⟩
abbrev S8192x40 : Shape := ⟨2, ![8192, 40]⟩
abbrev S1x40 : Shape := ⟨2, ![1, 40]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x8192, .f32⟩
  | .hbm, ⟨3, _⟩ => ⟨S1024x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x40, .f32⟩
  | .hbm, ⟨8, _⟩ => ⟨S40, .f32⟩
  | .hbm, ⟨9, _⟩ => ⟨S8192x64, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S1x64x64, .f32⟩
  | .hbm, ⟨14, _⟩ => ⟨S64x64, .f32⟩
  | .hbm, ⟨15, _⟩ => ⟨S8192x64, .f32⟩
  | .hbm, ⟨16, _⟩ => ⟨S8192x64, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S_, .f32⟩
  | .hbm, ⟨24, _⟩ => ⟨S8192x64, .f32⟩
  | .hbm, ⟨25, _⟩ => ⟨S8192x64, .f32⟩
  | .hbm, ⟨26, _⟩ => ⟨S1x64x64, .f32⟩
  | .hbm, ⟨27, _⟩ => ⟨S64x64, .f32⟩
  | .hbm, ⟨28, _⟩ => ⟨S8192x64, .f32⟩
  | .hbm, ⟨29, _⟩ => ⟨S8192x64, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S_, .f32⟩
  | .hbm, ⟨37, _⟩ => ⟨S8192x64, .f32⟩
  | .hbm, ⟨38, _⟩ => ⟨S8192x64, .f32⟩
  | .hbm, ⟨39, _⟩ => ⟨S1x64x64, .f32⟩
  | .hbm, ⟨40, _⟩ => ⟨S64x64, .f32⟩
  | .hbm, ⟨41, _⟩ => ⟨S8192x64, .f32⟩
  | .hbm, ⟨42, _⟩ => ⟨S8192x64, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S8192x64, .f32⟩
  | .hbm, ⟨47, _⟩ => ⟨S8192x64, .f32⟩
  | .hbm, ⟨48, _⟩ => ⟨S8192x64, .f32⟩
  | .hbm, ⟨49, _⟩ => ⟨S_, .f32⟩
  | .hbm, ⟨50, _⟩ => ⟨S8192x64, .f32⟩
  | .hbm, ⟨51, _⟩ => ⟨S8192x64, .f32⟩
  | .hbm, ⟨52, _⟩ => ⟨S8192x40, .f32⟩
  | .hbm, ⟨53, _⟩ => ⟨S8192x40, .f32⟩
  | .hbm, ⟨54, _⟩ => ⟨S1x40, .f32⟩
  | .hbm, ⟨55, _⟩ => ⟨S8192x40, .f32⟩
  | .hbm, ⟨56, _⟩ => ⟨S8192x40, .f32⟩
  | .hbm, ⟨57, _⟩ => ⟨S_, .f32⟩
  | .hbm, ⟨58, _⟩ => ⟨S8192x40, .f32⟩
  | .hbm, ⟨59, _⟩ => ⟨S8192x40, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_cst : Ref sig .tc := ⟨.hbm, 36, rfl⟩
abbrev main_call1_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_cst : Ref sig .tc := ⟨.hbm, 49, rfl⟩
abbrev main_call2_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call3_cst : Ref sig .tc := ⟨.hbm, 57, rfl⟩
abbrev main_call3_v0 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S8192x64 : S_.BroadcastsInDim S8192x64 (![] : Fin 0 → Fin S8192x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S40_S1x40_1 : S40.BroadcastsInDim S1x40 (![1] : Fin 1 → Fin S1x40.rank)
  bcast_S1x40_S8192x40_0_1 : S1x40.BroadcastsInDim S8192x40 (![0, 1] : Fin 2 → Fin S8192x40.rank)
  bcast_S_S8192x40 : S_.BroadcastsInDim S8192x40 (![] : Fin 0 → Fin S8192x40.rank)
  dot_S8192x1024_S1024x64_S8192x64_1_0_0_1_n_n_wf : DotDims.WF S8192x1024 S1024x64 S8192x64 [1] [0] [0] [1] [] []
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []
  dot_S8192x64_S64x40_S8192x40_1_0_0_1_n_n_wf : DotDims.WF S8192x64 S64x40 S8192x40 [1] [0] [0] [1] [] []
  dot_S8192x8192_S8192x40_S8192x40_1_0_0_1_n_n_wf : DotDims.WF S8192x8192 S8192x40 S8192x40 [1] [0] [0] [1] [] []

variable [Facts₀]

def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x40_S8192x40_1_0_0_1_n_n : DotDims S8192x64 S64x40 S8192x40 where
  lhsContracting := [1]
  rhsContracting := [0]
  lhsNonContracting := [0]
  rhsNonContracting := [1]
  lhsBatch := []
  rhsBatch := []
  wf := dot_S8192x64_S64x40_S8192x40_1_0_0_1_n_n_wf
def dot_S8192x8192_S8192x40_S8192x40_1_0_0_1_n_n : DotDims S8192x8192 S8192x40 S8192x40 where
  lhsContracting := [1]
  rhsContracting := [0]
  lhsNonContracting := [0]
  rhsNonContracting := [1]
  lhsBatch := []
  rhsBatch := []
  wf := dot_S8192x8192_S8192x40_S8192x40_1_0_0_1_n_n_wf

class Facts : Prop extends Facts₀ where

variable [Facts]
-- ==== Proof.Spec.lean ====
/-
  The mathematics of the certificate, over the extended reals, with no program in sight.

  A graph-convolution network on N = 8192 nodes: an affine projection `x · W₁ + b₁`, three hidden layers
  `h ↦ max (A · h · W + b + h) 0` and an output layer `h ↦ max (A · h · W + b) 0`. The two programs bracket the
  triple product differently: one forms `(A · h) · W`, the other `A · (h · W)`. On the extended reals the two agree when
  every entry is a real number (the sums are finite, and over ℝ multiplication distributes over them); with an infinite
  entry the distributive law fails, so the equality is stated under `AllReal`.
-/
import Idealize.ShloMosaic.PureOps.Ideal
import Idealize.ShloMosaic.Lib.ValueIdx

noncomputable section

namespace Cert.Gcn

open Idealize.ShloMosaic Idealize.ShloMosaic.ValueIdx

/-- A matrix of extended reals with `a` rows and `b` columns, indexed as the programs index a rank-2 array. -/
abbrev Mat (a b : Nat) := (⟨2, ![a, b]⟩ : Shape).Idx → EReal
/-- A vector of `b` extended reals (a rank-1 array). -/
abbrev Row (b : Nat) := (⟨1, ![b]⟩ : Shape).Idx → EReal
/-- A stack of `a` matrices (a rank-3 array). -/
abbrev Cube (a b c : Nat) := (⟨3, ![a, b, c]⟩ : Shape).Idx → EReal

/-- The matrix product: entry `(p, q)` is `∑ₖ A p k · B k q`. -/
def mm {a k b : Nat} (A : Mat a k) (B : Mat k b) : Mat a b :=
  fun i => ∑ q : Fin k, A (ix2 (i 0) q) * B (ix2 q (i 1))

/-- A one-row matrix read as a vector. -/
def rowOf {b : Nat} (β : Mat 1 b) : Row b := fun i => β (ix2 0 (i 0))

/-- The affine projection `X · W + β`, the bias added to every row. -/
def affine {a k b : Nat} (X : Mat a k) (W : Mat k b) (β : Row b) : Mat a b :=
  fun i => mm X W i + β (ix1 (i 1))

/-- A hidden layer with the product bracketed `(A · g) · W`; `g` is the copy of the features that enters the product and
    `h` the copy added back as the residual (the same array in the network). `A` may be a band of rows of the adjacency
    matrix, `h` the same band of the features: the result is then that band of the layer's output. -/
def hiddenL {n k d : Nat} (A : Mat n k) (g : Mat k d) (h : Mat n d) (W : Mat d d) (β : Row d) : Mat n d :=
  fun i => max (mm (mm A g) W i + β (ix1 (i 1)) + h i) 0

/-- A hidden layer with the product bracketed `A · (h · W)`. -/
def hiddenR {n d : Nat} (A : Mat n n) (h : Mat n d) (W : Mat d d) (β : Row d) : Mat n d :=
  fun i => max (mm A (mm h W) i + β (ix1 (i 1)) + h i) 0

/-- The output layer (no residual) with the product bracketed `(A · h) · W`. -/
def outL {n k d e : Nat} (A : Mat n k) (h : Mat k d) (W : Mat d e) (β : Row e) : Mat n e :=
  fun i => max (mm (mm A h) W i + β (ix1 (i 1))) 0

/-- The output layer with the product bracketed `A · (h · W)`. -/
def outR {n d e : Nat} (A : Mat n n) (h : Mat n d) (W : Mat d e) (β : Row e) : Mat n e :=
  fun i => max (mm A (mm h W) i + β (ix1 (i 1))) 0

/-- Layer `l`'s weight matrix out of the stack. -/
def layerW (l : Fin 3) (W3 : Cube 3 64 64) : Mat 64 64 := fun i => W3 (ix3 l (i 0) (i 1))
/-- Layer `l`'s bias out of the stack. -/
def layerB (l : Fin 3) (b3 : Mat 3 64) : Row 64 := fun i => b3 (ix2 l (i 0))

/-- The whole network, every triple product bracketed to the left. -/
def netL (x : Mat 8192 1024) (A : Mat 8192 8192) (W1 : Mat 1024 64) (b1 : Row 64) (W3 : Cube 3 64 64) (b3 : Mat 3 64)
    (Wo : Mat 64 40) (bo : Row 40) : Mat 8192 40 :=
  let h0 := affine x W1 b1
  let h1 := hiddenL A h0 h0 (layerW 0 W3) (layerB 0 b3)
  let h2 := hiddenL A h1 h1 (layerW 1 W3) (layerB 1 b3)
  let h3 := hiddenL A h2 h2 (layerW 2 W3) (layerB 2 b3)
  outL A h3 Wo bo

/-- The whole network, every triple product bracketed to the right. -/
def netR (x : Mat 8192 1024) (A : Mat 8192 8192) (W1 : Mat 1024 64) (b1 : Row 64) (W3 : Cube 3 64 64) (b3 : Mat 3 64)
    (Wo : Mat 64 40) (bo : Row 40) : Mat 8192 40 :=
  let h0 := affine x W1 b1
  let h1 := hiddenR A h0 (layerW 0 W3) (layerB 0 b3)
  let h2 := hiddenR A h1 (layerW 1 W3) (layerB 1 b3)
  let h3 := hiddenR A h2 (layerW 2 W3) (layerB 2 b3)
  outR A h3 Wo bo

/-- Every entry is a real number (neither infinity). -/
def AllReal {S : Shape} (v : S.Idx → EReal) : Prop := ∀ i, ∃ r : ℝ, v i = (r : EReal)

/-! ## Real entries: the coercion from the reals commutes with finite sums, and the product is associative -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion from the reals is monotone, so it carries a maximum to the maximum. -/
theorem coe_max_real (x y : ℝ) : ((max x y : ℝ) : EReal) = max (x : EReal) (y : EReal) :=
  EReal.coe_strictMono.monotone.map_max

/-- A product of two matrices of reals is a matrix of reals. -/
theorem allReal_mm {a k b : Nat} {A : Mat a k} {B : Mat k b} (hA : AllReal A) (hB : AllReal B) : AllReal (mm A B) := by
  choose A' hA' using hA
  choose B' hB' using hB
  intro i
  refine ⟨∑ q : Fin k, A' (ix2 (i 0) q) * B' (ix2 q (i 1)), ?_⟩
  simp only [mm, hA', hB', ← EReal.coe_mul, coe_finset_sum]

/-- On matrices of reals the two bracketings of a triple product agree: both are the double sum
    `∑ₚ ∑_q A i p · g p q · W q j`, by distributivity and associativity over ℝ and exchanging the two finite sums. -/
theorem mm_assoc_of_allReal {n k d e : Nat} {A : Mat n k} {g : Mat k d} {W : Mat d e}
    (hA : AllReal A) (hg : AllReal g) (hW : AllReal W) : mm (mm A g) W = mm A (mm g W) := by
  choose A' hA' using hA
  choose g' hg' using hg
  choose W' hW' using hW
  funext i
  show ∑ q : Fin d, (∑ p : Fin k, A (ix2 (i 0) p) * g (ix2 p q)) * W (ix2 q (i 1))
      = ∑ p : Fin k, A (ix2 (i 0) p) * ∑ q : Fin d, g (ix2 p q) * W (ix2 q (i 1))
  simp only [hA', hg', hW', ← EReal.coe_mul, ← coe_finset_sum]
  congr 1
  simp only [Finset.sum_mul, Finset.mul_sum, mul_assoc]
  exact Finset.sum_comm

/-- The affine projection of reals is real. -/
theorem allReal_affine {a k b : Nat} {X : Mat a k} {W : Mat k b} {β : Row b}
    (hX : AllReal X) (hW : AllReal W) (hβ : AllReal β) : AllReal (affine X W β) := by
  intro i
  obtain ⟨r, hr⟩ := allReal_mm hX hW i
  obtain ⟨s, hs⟩ := hβ (ix1 (i 1))
  exact ⟨r + s, by simp only [affine, hr, hs, EReal.coe_add]⟩

/-- A hidden layer (right bracketing) of reals is real: the maximum of a real with zero is a real. -/
theorem allReal_hiddenR {n d : Nat} {A : Mat n n} {h : Mat n d} {W : Mat d d} {β : Row d}
    (hA : AllReal A) (hh : AllReal h) (hW : AllReal W) (hβ : AllReal β) : AllReal (hiddenR A h W β) := by
  intro i
  obtain ⟨r, hr⟩ := allReal_mm hA (allReal_mm hh hW) i
  obtain ⟨s, hs⟩ := hβ (ix1 (i 1))
  obtain ⟨t, ht⟩ := hh i
  exact ⟨max (r + s + t) 0, by simp only [hiddenR, hr, hs, ht, coe_max_real, EReal.coe_add, EReal.coe_zero]⟩

/-- On reals the two bracketings of a hidden layer agree. -/
theorem hiddenL_eq_hiddenR {n d : Nat} {A : Mat n n} {h : Mat n d} {W : Mat d d} (β : Row d)
    (hA : AllReal A) (hh : AllReal h) (hW : AllReal W) : hiddenL A h h W β = hiddenR A h W β := by
  funext i
  simp only [hiddenL, hiddenR, mm_assoc_of_allReal hA hh hW]

/-- On reals the two bracketings of the output layer agree. -/
theorem outL_eq_outR {n d e : Nat} {A : Mat n n} {h : Mat n d} {W : Mat d e} (β : Row e)
    (hA : AllReal A) (hh : AllReal h) (hW : AllReal W) : outL A h W β = outR A h W β := by
  funext i
  simp only [outL, outR, mm_assoc_of_allReal hA hh hW]

/-- A layer's weight matrix out of a stack of reals is real. -/
theorem allReal_layerW (l : Fin 3) {W3 : Cube 3 64 64} (hW3 : AllReal W3) : AllReal (layerW l W3) :=
  fun i => hW3 (ix3 l (i 0) (i 1))

/-- A layer's bias out of a stack of reals is real. -/
theorem allReal_layerB (l : Fin 3) {b3 : Mat 3 64} (hb3 : AllReal b3) : AllReal (layerB l b3) :=
  fun i => hb3 (ix2 l (i 0))

/-- THE LAW THAT JOINS THE TWO PROGRAMS: with every input entry a real number the two bracketings of the network agree. -/
theorem netL_eq_netR (x : Mat 8192 1024) (A : Mat 8192 8192) (W1 : Mat 1024 64) (b1 : Row 64) (W3 : Cube 3 64 64) (b3 : Mat 3 64)
    (Wo : Mat 64 40) (bo : Row 40) (hx : AllReal x) (hA : AllReal A) (hW1 : AllReal W1) (hb1 : AllReal b1) (hW3 : AllReal W3)
    (hb3 : AllReal b3) (hWo : AllReal Wo) (hbo : AllReal bo) :
    netL x A W1 b1 W3 b3 Wo bo = netR x A W1 b1 W3 b3 Wo bo := by
  -- Walk the layers, carrying "real so far"; at each layer the two bracketings agree on reals.
  have h0 := allReal_affine hx hW1 hb1
  have r1 := allReal_hiddenR hA h0 (allReal_layerW 0 hW3) (allReal_layerB 0 hb3)
  have r2 := allReal_hiddenR hA r1 (allReal_layerW 1 hW3) (allReal_layerB 1 hb3)
  have r3 := allReal_hiddenR hA r2 (allReal_layerW 2 hW3) (allReal_layerB 2 hb3)
  unfold netL netR
  simp only []
  rw [hiddenL_eq_hiddenR (layerB 0 b3) hA h0 (allReal_layerW 0 hW3),
    hiddenL_eq_hiddenR (layerB 1 b3) hA r1 (allReal_layerW 1 hW3),
    hiddenL_eq_hiddenR (layerB 2 b3) hA r2 (allReal_layerW 2 hW3),
    outL_eq_outR bo hA r3 hWo]

end Cert.Gcn

end
-- ==== Proof.Payload.lean ====
/-
  What each kernel body stores, as a function of the blocks it loads, at the extended reals: the projection kernel stores
  `x · W + b`, a hidden-layer kernel `max ((a · g) · W + b + h) 0` and the output kernel `max ((a · g) · W + b) 0`, where a
  change of float format is the identity and a matrix product into a zero accumulator is the plain sum of products.
-/
import proofs.«114314_j52304111731095_1_alg».proof.Proof.Spec
import proofs.«114314_j52304111731095_1_alg».proof.Proof.Gen.KernelIdeal.Skeleton
import Idealize.ShloMosaic.PureOps.Ideal.Laws
import Idealize.ShloMosaic.Lib.Pipeline.Value
import Idealize.ShloMosaic.Lib.ValueLayout
set_option maxRecDepth 16384

noncomputable section

namespace Cert.GcnKernel

open Idealize.ShloMosaic Idealize.ShloMosaic.TcCoe Idealize.ShloMosaic.ValueIdx Idealize.SL.Sem Cert.KernelIdeal Cert.KernelIdeal.Gen Cert.Gcn

/-! ## The four matrix products at an entry

Each product contracts the left operand's columns against the right operand's rows. Read at the output entry `(p, q)`
with the contraction index re-indexed by its one coordinate `k`, the left factor sits at `(p, k)` and the right one at
`(k, q)`; with a zero accumulator the entry is the bare sum `∑ₖ l p k · r k q`. -/

/-! ### Features times projection weights: `[1024, 1024] · [1024, 64]` -/

/-- The left operand's row is the output's row. -/
theorem lhs_fc_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
/-- The left operand's column is the contracted coordinate. -/
theorem lhs_fc_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
/-- The right operand's row is the contracted coordinate. -/
theorem rhs_fc_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
/-- The right operand's column is the output's column. -/
theorem rhs_fc_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Entry `(p, q)` of the product accumulated into zero is `∑ₖ l p k · r k q`. -/
theorem matmul_fc_at (l : FVec Ideal S1024x1024 .bf16) (r : FVec Ideal S1024x64 .bf16) (p : Fin 1024) (q : Fin 64) :
    matmul dot_S1024x1024_S1024x64_S1024x64_1_0_0_1_n_n none l r (constant (F := Ideal) S1024x64 .f32 0x00000000#32) (ix2 p q)
      = ∑ k : Fin 1024, l (ix2 p k) * r (ix2 k q) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 p q) ((ValueIdx.contrEquiv1 dot_S1024x1024_S1024x64_S1024x64_1_0_0_1_n_n 1024 rfl rfl).symm k) = ix2 p k := funext fun a => Fin.ext (by
    match a with
    | ⟨0, _⟩ => exact lhs_fc_0 _ _
    | ⟨1, _⟩ => exact (lhs_fc_1 _ _).trans hk)
  have er : dot_S1024x1024_S1024x64_S1024x64_1_0_0_1_n_n.rhsIdx (ix2 p q) ((ValueIdx.contrEquiv1 dot_S1024x1024_S1024x64_S1024x64_1_0_0_1_n_n 1024 rfl rfl).symm k) = ix2 k q := funext fun a => Fin.ext (by
    match a with
    | ⟨0, _⟩ => exact (rhs_fc_0 _ _).trans hk
    | ⟨1, _⟩ => exact rhs_fc_1 _ _)
  rw [el, er]

/-! ### Adjacency band times features: `[1024, 8192] · [8192, 64]` -/

/-- The left operand's row is the output's row. -/
theorem lhs_adj_0 (i : S1024x64.Idx) (q : dot_S1024x8192_S8192x64_S1024x64_1_0_0_1_n_n.contr.Idx) :
    (dot_S1024x8192_S8192x64_S1024x64_1_0_0_1_n_n.lhsIdx i q 0).val = (i 0).val := by
  unfold DotDims.lhsIdx
  rw [dif_neg (show ¬(0 : Fin S1024x8192.rank) ∈ dot_S1024x8192_S8192x64_S1024x64_1_0_0_1_n_n.lhsBatch by decide), dif_pos (show (0 : Fin S1024x8192.rank) ∈ dot_S1024x8192_S8192x64_S1024x64_1_0_0_1_n_n.lhsNonContracting by decide)]
  rfl
/-- The left operand's column is the contracted coordinate. -/
theorem lhs_adj_1 (i : S1024x64.Idx) (q : dot_S1024x8192_S8192x64_S1024x64_1_0_0_1_n_n.contr.Idx) :
    (dot_S1024x8192_S8192x64_S1024x64_1_0_0_1_n_n.lhsIdx i q 1).val = (q ⟨0, by decide⟩).val :=
  dot_S1024x8192_S8192x64_S1024x64_1_0_0_1_n_n.lhsIdx_val_of_single rfl i q
/-- The right operand's row is the contracted coordinate. -/
theorem rhs_adj_0 (i : S1024x64.Idx) (q : dot_S1024x8192_S8192x64_S1024x64_1_0_0_1_n_n.contr.Idx) :
    (dot_S1024x8192_S8192x64_S1024x64_1_0_0_1_n_n.rhsIdx i q 0).val = (q ⟨0, by decide⟩).val :=
  dot_S1024x8192_S8192x64_S1024x64_1_0_0_1_n_n.rhsIdx_val_of_single rfl i q
/-- The right operand's column is the output's column. -/
theorem rhs_adj_1 (i : S1024x64.Idx) (q : dot_S1024x8192_S8192x64_S1024x64_1_0_0_1_n_n.contr.Idx) :
    (dot_S1024x8192_S8192x64_S1024x64_1_0_0_1_n_n.rhsIdx i q 1).val = (i 1).val := by
  unfold DotDims.rhsIdx
  rw [dif_neg (show ¬(1 : Fin S8192x64.rank) ∈ dot_S1024x8192_S8192x64_S1024x64_1_0_0_1_n_n.rhsBatch by decide), dif_pos (show (1 : Fin S8192x64.rank) ∈ dot_S1024x8192_S8192x64_S1024x64_1_0_0_1_n_n.rhsNonContracting by decide)]
  rfl

/-- Entry `(p, q)` of the product accumulated into zero is `∑ₖ l p k · r k q`. -/
theorem matmul_adj_at (l : FVec Ideal S1024x8192 .bf16) (r : FVec Ideal S8192x64 .bf16) (p : Fin 1024) (q : Fin 64) :
    matmul dot_S1024x8192_S8192x64_S1024x64_1_0_0_1_n_n none l r (constant (F := Ideal) S1024x64 .f32 0x00000000#32) (ix2 p q)
      = ∑ k : Fin 8192, l (ix2 p k) * r (ix2 k q) := by
  simp only [matmul]
  rw [Ideal.matmul_constant_zero_apply, ← Equiv.sum_comp (ValueIdx.contrEquiv1 dot_S1024x8192_S8192x64_S1024x64_1_0_0_1_n_n 8192 rfl rfl).symm]
  refine Finset.sum_congr rfl fun k _ => ?_
  have hk := ValueIdx.contrEquiv1_symm_val dot_S1024x8192_S8192x64_S1024x64_1_0_0_1_n_n 8192 rfl rfl k
  have el : dot_S1024x8192_S8192x64_S1024x64_1_0_0_1_n_n.lhsIdx (ix2 p q) ((ValueIdx.contrEquiv1 dot_S1024x8192_S8192x64_S1024x64_1_0_0_1_n_n 8192 rfl rfl).symm k) = ix2 p k := funext fun a => Fin.ext (by
    match a with
    | ⟨0, _⟩ => exact lhs_adj_0 _ _
    | ⟨1, _⟩ => exact (lhs_adj_1 _ _).trans hk)
  have er : dot_S1024x8192_S8192x64_S1024x64_1_0_0_1_n_n.rhsIdx (ix2 p q) ((ValueIdx.contrEquiv1 dot_S1024x8192_S8192x64_S1024x64_1_0_0_1_n_n 8192 rfl rfl).symm k) = ix2 k q := funext fun a => Fin.ext (by
    match a with
    | ⟨0, _⟩ => exact (rhs_adj_0 _ _).trans hk
    | ⟨1, _⟩ => exact rhs_adj_1 _ _)
  rw [el, er]

/-! ### Aggregated features times a hidden layer's weights: `[1024, 64] · [64, 64]` -/

/-- The left operand's row is the output's row. -/
theorem lhs_w_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
/-- The left operand's column is the contracted coordinate. -/
theorem lhs_w_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
/-- The right operand's row is the contracted coordinate. -/
theorem rhs_w_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
/-- The right operand's column is the output's column. -/
theorem rhs_w_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- Entry `(p, q)` of the product accumulated into zero is `∑ₖ l p k · r k q`. -/
theorem matmul_w_at (l : FVec Ideal S1024x64 .bf16) (r : FVec Ideal S64x64 .bf16) (p : Fin 1024) (q : Fin 64) :
    matmul dot_S1024x64_S64x64_S1024x64_1_0_0_1_n_n none l r (constant (F := Ideal) S1024x64 .f32 0x00000000#32) (ix2 p q)
      = ∑ k : Fin 64, l (ix2 p k) * r (ix2 k q) := by
  simp only [matmul]
  rw [Ideal.matmul_constant_zero_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 p q) ((ValueIdx.contrEquiv1 dot_S1024x64_S64x64_S1024x64_1_0_0_1_n_n 64 rfl rfl).symm k) = ix2 p k := funext fun a => Fin.ext (by
    match a with
    | ⟨0, _⟩ => exact lhs_w_0 _ _
    | ⟨1, _⟩ => exact (lhs_w_1 _ _).trans hk)
  have er : dot_S1024x64_S64x64_S1024x64_1_0_0_1_n_n.rhsIdx (ix2 p q) ((ValueIdx.contrEquiv1 dot_S1024x64_S64x64_S1024x64_1_0_0_1_n_n 64 rfl rfl).symm k) = ix2 k q := funext fun a => Fin.ext (by
    match a with
    | ⟨0, _⟩ => exact (rhs_w_0 _ _).trans hk
    | ⟨1, _⟩ => exact rhs_w_1 _ _)
  rw [el, er]

/-! ### Aggregated features times the output weights: `[1024, 64] · [64, 40]` -/

/-- The left operand's row is the output's row. -/
theorem lhs_wo_0 (i : S1024x40.Idx) (q : dot_S1024x64_S64x40_S1024x40_1_0_0_1_n_n.contr.Idx) :
    (dot_S1024x64_S64x40_S1024x40_1_0_0_1_n_n.lhsIdx i q 0).val = (i 0).val := by
  unfold DotDims.lhsIdx
  rw [dif_neg (show ¬(0 : Fin S1024x64.rank) ∈ dot_S1024x64_S64x40_S1024x40_1_0_0_1_n_n.lhsBatch by decide), dif_pos (show (0 : Fin S1024x64.rank) ∈ dot_S1024x64_S64x40_S1024x40_1_0_0_1_n_n.lhsNonContracting by decide)]
  rfl
/-- The left operand's column is the contracted coordinate. -/
theorem lhs_wo_1 (i : S1024x40.Idx) (q : dot_S1024x64_S64x40_S1024x40_1_0_0_1_n_n.contr.Idx) :
    (dot_S1024x64_S64x40_S1024x40_1_0_0_1_n_n.lhsIdx i q 1).val = (q ⟨0, by decide⟩).val :=
  dot_S1024x64_S64x40_S1024x40_1_0_0_1_n_n.lhsIdx_val_of_single rfl i q
/-- The right operand's row is the contracted coordinate. -/
theorem rhs_wo_0 (i : S1024x40.Idx) (q : dot_S1024x64_S64x40_S1024x40_1_0_0_1_n_n.contr.Idx) :
    (dot_S1024x64_S64x40_S1024x40_1_0_0_1_n_n.rhsIdx i q 0).val = (q ⟨0, by decide⟩).val :=
  dot_S1024x64_S64x40_S1024x40_1_0_0_1_n_n.rhsIdx_val_of_single rfl i q
/-- The right operand's column is the output's column. -/
theorem rhs_wo_1 (i : S1024x40.Idx) (q : dot_S1024x64_S64x40_S1024x40_1_0_0_1_n_n.contr.Idx) :
    (dot_S1024x64_S64x40_S1024x40_1_0_0_1_n_n.rhsIdx i q 1).val = (i 1).val := by
  unfold DotDims.rhsIdx
  rw [dif_neg (show ¬(1 : Fin S64x40.rank) ∈ dot_S1024x64_S64x40_S1024x40_1_0_0_1_n_n.rhsBatch by decide), dif_pos (show (1 : Fin S64x40.rank) ∈ dot_S1024x64_S64x40_S1024x40_1_0_0_1_n_n.rhsNonContracting by decide)]
  rfl

/-- Entry `(p, q)` of the product accumulated into zero is `∑ₖ l p k · r k q`. -/
theorem matmul_wo_at (l : FVec Ideal S1024x64 .bf16) (r : FVec Ideal S64x40 .bf16) (p : Fin 1024) (q : Fin 40) :
    matmul dot_S1024x64_S64x40_S1024x40_1_0_0_1_n_n none l r (constant (F := Ideal) S1024x40 .f32 0x00000000#32) (ix2 p q)
      = ∑ k : Fin 64, l (ix2 p k) * r (ix2 k q) := by
  simp only [matmul]
  rw [Ideal.matmul_constant_zero_apply, ← Equiv.sum_comp (ValueIdx.contrEquiv1 dot_S1024x64_S64x40_S1024x40_1_0_0_1_n_n 64 rfl rfl).symm]
  refine Finset.sum_congr rfl fun k _ => ?_
  have hk := ValueIdx.contrEquiv1_symm_val dot_S1024x64_S64x40_S1024x40_1_0_0_1_n_n 64 rfl rfl k
  have el : dot_S1024x64_S64x40_S1024x40_1_0_0_1_n_n.lhsIdx (ix2 p q) ((ValueIdx.contrEquiv1 dot_S1024x64_S64x40_S1024x40_1_0_0_1_n_n 64 rfl rfl).symm k) = ix2 p k := funext fun a => Fin.ext (by
    match a with
    | ⟨0, _⟩ => exact lhs_wo_0 _ _
    | ⟨1, _⟩ => exact (lhs_wo_1 _ _).trans hk)
  have er : dot_S1024x64_S64x40_S1024x40_1_0_0_1_n_n.rhsIdx (ix2 p q) ((ValueIdx.contrEquiv1 dot_S1024x64_S64x40_S1024x40_1_0_0_1_n_n 64 rfl rfl).symm k) = ix2 k q := funext fun a => Fin.ext (by
    match a with
    | ⟨0, _⟩ => exact (rhs_wo_0 _ _).trans hk
    | ⟨1, _⟩ => exact rhs_wo_1 _ _)
  rw [el, er]

/-! ## The payloads

At an entry `(p, q)`: a reshape to the same shape is the identity, the one-row bias broadcast down the rows reads its
column `q`, the narrowing of the inner product's format is the identity on extended reals, and the scalar the maximum
is taken against is the real number `0`. What is left is the layer's formula with both products written as sums. -/

/-- The projection kernel's stored block is the affine map of its loaded blocks. -/
theorem pay_fc1 (x0 : Vec Ideal S1024x1024 .bf16) (x1 : Vec Ideal S1024x64 .bf16) (x2 : Vec Ideal S1x64 .f32) :
    (k0_pay1 (F := Ideal) x0 x1 x2 : Mat 1024 64) = affine (x0 : Mat 1024 1024) (x1 : Mat 1024 64) (rowOf (x2 : Mat 1 64)) := by
  funext i
  obtain ⟨p, q, rfl⟩ : ∃ (p : Fin 1024) (q : Fin 64), i = ix2 p q := ⟨i 0, i 1, eq_ix2 i⟩
  unfold k0_pay1 affine
  simp only [shapeCast_self]
  rw [addf_apply, matmul_fc_at, broadcastTo_1b_ab_apply]
  rfl

/-- A hidden-layer kernel's stored block is the left-bracketed hidden layer of its loaded blocks. -/
theorem pay_hidden1 (a : Vec Ideal S1024x8192 .bf16) (g : Vec Ideal S8192x64 .bf16) (W : Vec Ideal S64x64 .bf16) (β : Vec Ideal S1x64 .f32)
    (h : Vec Ideal S1024x64 .f32) :
    (k1_pay1 (F := Ideal) a g W β h : Mat 1024 64)
      = hiddenL (a : Mat 1024 8192) (g : Mat 8192 64) (h : Mat 1024 64) (W : Mat 64 64) (rowOf (β : Mat 1 64)) := by
  funext i
  obtain ⟨p, q, rfl⟩ : ∃ (p : Fin 1024) (q : Fin 64), i = ix2 p q := ⟨i 0, i 1, eq_ix2 i⟩
  unfold k1_pay1 hiddenL
  simp only [shapeCast_self]
  rw [maximumf_apply, broadcast_apply, addf_apply, addf_apply, matmul_w_at, broadcastTo_1b_ab_apply]
  simp only [truncf_apply, matmul_adj_at]
  show max _ (Ideal.ofBits .f32 0x00000000#32) = _
  rw [Ideal.ofBits_zero_f32]
  rfl

theorem pay_hidden2 (a : Vec Ideal S1024x8192 .bf16) (g : Vec Ideal S8192x64 .bf16) (W : Vec Ideal S64x64 .bf16) (β : Vec Ideal S1x64 .f32)
    (h : Vec Ideal S1024x64 .f32) :
    (k2_pay1 (F := Ideal) a g W β h : Mat 1024 64)
      = hiddenL (a : Mat 1024 8192) (g : Mat 8192 64) (h : Mat 1024 64) (W : Mat 64 64) (rowOf (β : Mat 1 64)) := by
  exact pay_hidden1 a g W β h

theorem pay_hidden3 (a : Vec Ideal S1024x8192 .bf16) (g : Vec Ideal S8192x64 .bf16) (W : Vec Ideal S64x64 .bf16) (β : Vec Ideal S1x64 .f32)
    (h : Vec Ideal S1024x64 .f32) :
    (k3_pay1 (F := Ideal) a g W β h : Mat 1024 64)
      = hiddenL (a : Mat 1024 8192) (g : Mat 8192 64) (h : Mat 1024 64) (W : Mat 64 64) (rowOf (β : Mat 1 64)) := by
  exact pay_hidden1 a g W β h

/-- The output kernel's stored block is the left-bracketed output layer of its loaded blocks. -/
theorem pay_out (a : Vec Ideal S1024x8192 .bf16) (g : Vec Ideal S8192x64 .bf16) (W : Vec Ideal S64x40 .bf16) (β : Vec Ideal S1x40 .f32) :
    (k4_pay1 (F := Ideal) a g W β : Mat 1024 40)
      = outL (a : Mat 1024 8192) (g : Mat 8192 64) (W : Mat 64 40) (rowOf (β : Mat 1 40)) := by
  funext i
  obtain ⟨p, q, rfl⟩ : ∃ (p : Fin 1024) (q : Fin 40), i = ix2 p q := ⟨i 0, i 1, eq_ix2 i⟩
  unfold k4_pay1 outL
  simp only [shapeCast_self]
  rw [maximumf_apply, broadcast_apply, addf_apply, matmul_wo_at, broadcastTo_1b_ab_apply]
  simp only [truncf_apply, matmul_adj_at]
  show max _ (Ideal.ofBits .f32 0x00000000#32) = _
  rw [Ideal.ofBits_zero_f32]
  rfl

end Cert.GcnKernel

end
-- ==== Proof.Region0.lean ====
/-
  The projection region as one whole-array function: grid point t writes rows 1024·t … 1024·t + 1023 of x · W + b (it reads
  that band of x, all of W and b), and the eight bands tile the 8192 rows.
-/
import proofs.«114314_j52304111731095_1_alg».proof.Proof.Spec
import proofs.«114314_j52304111731095_1_alg».proof.Proof.Gen.KernelIdeal.Frame
import proofs.«114314_j52304111731095_1_alg».proof.Proof.Payload
set_option maxRecDepth 16384

noncomputable section

namespace Cert.GcnKernel

open Idealize.ShloMosaic Idealize.ShloMosaic.TcCoe Idealize.ShloMosaic.ValueIdx Idealize.SL.Sem Cert.KernelIdeal Cert.KernelIdeal.Gen Cert.Gcn
open Idealize.ShloMosaic.Pipeline (Dat Cfg Window)

-- the TensorCore's buffer contents when the region is entered
variable (V : (c : Dev nD) → (b : Ref sig .tc) → Buf (Elt Ideal) ((c : Thread nD τ).loc b))

/-- The zero offsets of a whole-block access, as the constant function. -/
private theorem zero2 : (![0, 0] : Fin 2 → Nat) = fun _ => 0 := funext fun a => by fin_cases a <;> rfl

/-- The block indices over the grid: the bands of `x` and of the output move with the point along the rows; `W` and `b` stay at
    block (0, 0). -/
private theorem idx0 : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (0 : Fin 2) = t.val ∧ win0_3.index t (1 : Fin 2) = 0 :=
  (by decide +kernel : ∀ t : Fin grid0.N, _)

/-- The affine map at an index depends only on the row of the left factor, the column of the right factor and the bias
    entry it meets: two triples of arrays that agree there give the same entry. -/
private theorem affine_congr {a a' k b b' : Nat} (X : Mat a k) (W : Mat k b) (β : Mat 1 b) (X' : Mat a' k) (W' : Mat k b') (β' : Mat 1 b')
    (j : (⟨2, ![a, b]⟩ : Shape).Idx) (i : (⟨2, ![a', b']⟩ : Shape).Idx)
    (hX : ∀ q : Fin k, X (ix2 (j 0) q) = X' (ix2 (i 0) q))
    (hW : ∀ q : Fin k, W (ix2 q (j 1)) = W' (ix2 q (i 1)))
    (hβ : β (ix2 0 (j 1)) = β' (ix2 0 (i 1))) :
    affine X W (rowOf β) j = affine X' W' (rowOf β') i := by
  unfold affine mm rowOf
  show (∑ q : Fin k, X (ix2 (j 0) q) * W (ix2 q (j 1))) + β (ix2 0 (j 1)) = (∑ q : Fin k, X' (ix2 (i 0) q) * W' (ix2 q (i 1))) + β' (ix2 0 (i 1))
  rw [hβ]
  exact congrArg (· + _) (Finset.sum_congr rfl fun q _ => by rw [hX q, hW q])

/-- What grid point `t` writes back is band `t` of `x · W + b`: the stored block is the affine map of the loaded blocks, the
    loaded band of `x` is rows 1024·t … of `x`, and `W`, `b` are loaded whole. -/
private theorem flushed0 (c : Dev nD) (t : Fin cfg0.N) :
    (dat0 (F := Ideal) V c).flushed 3 t = ((cfg0.win 3).blk t).view.read (Elt Ideal)
      (affine (V c main_v1 : Mat 8192 1024) (V c main_v2 : Mat 1024 64) (rowOf (V c main_v3 : Mat 1 64))) := by
  show (cfg0.win 3).cut (grid0.coords t) ((dat0 V c).after 3 t) = _
  rw [after0_3]
  unfold out0_3
  rw [View.canon_unit_zero zero2]
  simp only [View.ld_unit_zero (S := S1024x1024) zero2, View.ld_unit_zero (S := S1024x64) zero2, View.ld_unit_zero (S := S1x64) zero2]
  refine (congrArg ((win0 3).cut (grid0.coords t)) (pay_fc1 (iblk0 V c 0 t) (iblk0 V c 1 t) (iblk0 V c 2 t))).trans ?_
  obtain ⟨e00, e01, e10, e11, e20, e21, e30, e31⟩ := idx0 t
  funext j
  show affine (iblk0 V c 0 t : Mat 1024 1024) (iblk0 V c 1 t : Mat 1024 64) (rowOf (iblk0 V c 2 t : Mat 1 64)) j
    = affine (V c main_v1 : Mat 8192 1024) (V c main_v2 : Mat 1024 64) (rowOf (V c main_v3 : Mat 1 64)) (((cfg0.win 3).blk t).view.emb j)
  refine affine_congr (a := 1024) (a' := 8192) (k := 1024) (b := 64) (b' := 64) (iblk0 V c 0 t) (iblk0 V c 1 t) (iblk0 V c 2 t)
    (V c main_v1) (V c main_v2) (V c main_v3) j (((cfg0.win 3).blk t).view.emb j) ?_ ?_ ?_
  · intro q
    show V c main_v1 (((cfg0.win 0).blk t).view.emb (ix2 (j 0) q)) = V c main_v1 (ix2 ((((cfg0.win 3).blk t).view.emb j) 0) q)
    refine congrArg (V c main_v1) ?_
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * q.val = q.val; omega
  · intro q
    show V c main_v2 (((cfg0.win 1).blk t).view.emb (ix2 q (j 1))) = V c main_v2 (ix2 q ((((cfg0.win 3).blk t).view.emb j) 1))
    refine congrArg (V c main_v2) ?_
    funext a; apply Fin.ext
    match a with
    | ⟨0, _⟩ => show win0_1.index t (0 : Fin 2) * 1024 + 1 * q.val = q.val; omega
    | ⟨1, _⟩ => show win0_1.index t (1 : Fin 2) * 64 + 1 * (j 1).val = win0_3.index t (1 : Fin 2) * 64 + 1 * (j 1).val; omega
  · show V c main_v3 (((cfg0.win 2).blk t).view.emb (ix2 0 (j 1))) = V c main_v3 (ix2 0 ((((cfg0.win 3).blk t).view.emb j) 1))
    refine congrArg (V c main_v3) ?_
    funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output array is in point `t`'s block iff each coordinate is in the block's range on its axis. -/
private theorem mem_blk0 (t : Fin cfg0.N) (i : S8192x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v4).slice (win0_3.rect t)).set ↔ _
  rw [View.set_slice_whole, Rect.mem_set_unit]
  exact Iff.rfl

/-- Row `r` lies in the band of point `r / 1024`: the eight bands tile the 8192 rows. -/
private theorem cover0 (i : S8192x64.Idx) : ∃ t : Fin cfg0.N, (cfg0.win 3).flush t = true ∧ i ∈ ((cfg0.win 3).blk t).view.set := by
  have hi0 : (i 0).val < 8192 := (i 0).isLt
  have hi1 : (i 1).val < 64 := (i 1).isLt
  have hN : cfg0.N = 8 := N_0
  let t : Fin cfg0.N := ⟨(i 0).val / 1024, by rw [hN]; omega⟩
  obtain ⟨e00, e01, e10, e11, e20, e21, e30, e31⟩ := idx0 t
  have ht : t.val = (i 0).val / 1024 := rfl
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 64 ≤ (i 1).val ∧ (i 1).val < win0_3.index t (1 : Fin 2) * 64 + 64; omega

/-- After the projection region its output array holds `x · W + b` of the arrays the region found. -/
theorem arr0 (c : Dev nD) :
    ((dat0 (F := Ideal) V c).arrAt 3 cfg0.N : Mat 8192 64)
      = affine (V c main_v1 : Mat 8192 1024) (V c main_v2 : Mat 1024 64) (rowOf (V c main_v3 : Mat 1 64)) :=
  (dat0 (F := Ideal) V c).arrAt_eq_of_cover 3
    (affine (V c main_v1 : Mat 8192 1024) (V c main_v2 : Mat 1024 64) (rowOf (V c main_v3 : Mat 1 64)))
    (fun t _ => flushed0 V c t) cover0

end Cert.GcnKernel

end
-- ==== Proof.Region1.lean ====
/-
  Hidden-layer region 1 as one whole-array function: grid point t writes rows 1024·t … 1024·t + 1023 of
  max ((A · g) · W + b + h) 0 (it reads that band of A and of h, all of g, W and b), and the eight bands tile the 8192 rows.
-/
import proofs.«114314_j52304111731095_1_alg».proof.Proof.Spec
import proofs.«114314_j52304111731095_1_alg».proof.Proof.Gen.KernelIdeal.Frame
import proofs.«114314_j52304111731095_1_alg».proof.Proof.Payload
import Idealize.ShloMosaic.Lib.Pipeline.Value
set_option maxRecDepth 16384

noncomputable section

namespace Cert.GcnKernel

open Idealize.ShloMosaic Idealize.ShloMosaic.TcCoe Idealize.ShloMosaic.ValueIdx Idealize.SL.Sem Cert.KernelIdeal Cert.KernelIdeal.Gen Cert.Gcn
open Idealize.ShloMosaic.Pipeline (Dat Cfg Window)

/-- Rows 1024·s … 1024·s + 1023 of the left-bracketed hidden layer are that layer of the same rows of the adjacency
    matrix and of the residual: entry (p, r) of the band reads only row 1024·s + p of the adjacency matrix and of the
    residual, and all of the features, the weights and the bias. -/
theorem hiddenL_band_r1 (s : Nat)
    (A : Mat 8192 8192) (g : Mat 8192 64) (h : Mat 8192 64) (W : Mat 64 64) (β : Row 64)
    (a : Mat 1024 8192) (g' : Mat 8192 64) (h' : Mat 1024 64) (W' : Mat 64 64) (β' : Row 64)
    (ha : ∀ (y : (⟨2, ![1024, 8192]⟩ : Shape).Idx) (i : (⟨2, ![8192, 8192]⟩ : Shape).Idx),
      (i 0).val = 1024 * s + (y 0).val → (i 1).val = (y 1).val → a y = A i)
    (hg : ∀ y : (⟨2, ![8192, 64]⟩ : Shape).Idx, g' y = g y)
    (hh : ∀ (y : (⟨2, ![1024, 64]⟩ : Shape).Idx) (i : (⟨2, ![8192, 64]⟩ : Shape).Idx),
      (i 0).val = 1024 * s + (y 0).val → (i 1).val = (y 1).val → h' y = h i)
    (hW : ∀ y : (⟨2, ![64, 64]⟩ : Shape).Idx, W' y = W y)
    (hβ : ∀ r : Fin 64, β' (ix1 r) = β (ix1 r))
    (j : (⟨2, ![1024, 64]⟩ : Shape).Idx) (i : (⟨2, ![8192, 64]⟩ : Shape).Idx)
    (hi0 : (i 0).val = 1024 * s + (j 0).val) (hi1 : (i 1).val = (j 1).val) :
    hiddenL a g' h' W' β' j = hiddenL A g h W β i := by
  obtain ⟨p, r, rfl⟩ : ∃ (p : Fin 1024) (r : Fin 64), j = ix2 p r := ⟨j 0, j 1, eq_ix2 j⟩
  obtain ⟨p', r', rfl⟩ : ∃ (p' : Fin 8192) (r' : Fin 64), i = ix2 p' r' := ⟨i 0, i 1, eq_ix2 i⟩
  have hp : p'.val = 1024 * s + p.val := hi0
  obtain rfl : r' = r := Fin.ext hi1
  show max ((∑ q : Fin 64, (∑ k : Fin 8192, a (ix2 p k) * g' (ix2 k q)) * W' (ix2 q r')) + β' (ix1 r') + h' (ix2 p r')) 0
     = max ((∑ q : Fin 64, (∑ k : Fin 8192, A (ix2 p' k) * g (ix2 k q)) * W (ix2 q r')) + β (ix1 r') + h (ix2 p' r')) 0
  have inner : ∀ q : Fin 64, (∑ k : Fin 8192, a (ix2 p k) * g' (ix2 k q)) = ∑ k : Fin 8192, A (ix2 p' k) * g (ix2 k q) :=
    fun q => Finset.sum_congr rfl fun k _ => by rw [ha (ix2 p k) (ix2 p' k) hp rfl, hg (ix2 k q)]
  have outer : (∑ q : Fin 64, (∑ k : Fin 8192, a (ix2 p k) * g' (ix2 k q)) * W' (ix2 q r'))
      = ∑ q : Fin 64, (∑ k : Fin 8192, A (ix2 p' k) * g (ix2 k q)) * W (ix2 q r') :=
    Finset.sum_congr rfl fun q _ => by rw [inner q, hW (ix2 q r')]
  rw [outer, hβ r', hh (ix2 p r') (ix2 p' r') hp rfl]

-- the TensorCore's buffer contents when the region is entered
variable (V : (c : Dev nD) → (b : Ref sig .tc) → Buf (Elt Ideal) ((c : Thread nD τ).loc b))

/-- The zero block offsets, however they are spelt. -/
theorem zero_off_r1 : (![0, 0] : Fin 2 → Nat) = fun _ => 0 := funext fun a => by fin_cases a <;> rfl

/-- The block index maps over the grid: the adjacency band, the residual band and the output band sit at block row t, column 0;
    the features, the weights and the bias are always block (0, 0). -/
theorem idx_facts_r1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- The adjacency block at point t is rows 1024·t … 1024·t + 1023 of the adjacency matrix. -/
theorem blk0_r1 (c : Dev nD) (t : Fin cfg1.N) (y : S1024x8192.Idx) (i : S8192x8192.Idx)
    (h0 : (i 0).val = 1024 * t.val + (y 0).val) (h1 : (i 1).val = (y 1).val) :
    (iblk1 (F := Ideal) V c 0 t : Mat 1024 8192) y = (V c main_v0 : Mat 8192 8192) i := by
  obtain ⟨⟨e0, e1⟩, -⟩ := idx_facts_r1 t
  show V c main_v0 (((cfg1.win 0).blk t).view.emb y) = V c main_v0 i
  refine congrArg (V c main_v0) (funext fun a => Fin.ext ?_)
  match a with
  | ⟨0, _⟩ => show win1_0.index t (0 : Fin 2) * 1024 + 1 * (y 0).val = (i 0).val; omega
  | ⟨1, _⟩ => show win1_0.index t (1 : Fin 2) * 8192 + 1 * (y 1).val = (i 1).val; omega

/-- The feature block at every point is the whole feature matrix. -/
theorem blk1_r1 (c : Dev nD) (t : Fin cfg1.N) (y : S8192x64.Idx) :
    (iblk1 (F := Ideal) V c 1 t : Mat 8192 64) y = (V c main_v9 : Mat 8192 64) y := by
  obtain ⟨-, ⟨e0, e1⟩, -⟩ := idx_facts_r1 t
  show V c main_v9 (((cfg1.win 1).blk t).view.emb y) = V c main_v9 y
  refine congrArg (V c main_v9) (funext fun a => Fin.ext ?_)
  match a with
  | ⟨0, _⟩ => show win1_1.index t (0 : Fin 2) * 8192 + 1 * (y 0).val = (y 0).val; omega
  | ⟨1, _⟩ => show win1_1.index t (1 : Fin 2) * 64 + 1 * (y 1).val = (y 1).val; omega

/-- The residual block at point t is rows 1024·t … 1024·t + 1023 of the residual. -/
theorem blk2_r1 (c : Dev nD) (t : Fin cfg1.N) (y : S1024x64.Idx) (i : S8192x64.Idx)
    (h0 : (i 0).val = 1024 * t.val + (y 0).val) (h1 : (i 1).val = (y 1).val) :
    (iblk1 (F := Ideal) V c 2 t : Mat 1024 64) y = (V c main_v4 : Mat 8192 64) i := by
  obtain ⟨-, -, ⟨e0, e1⟩, -⟩ := idx_facts_r1 t
  show V c main_v4 (((cfg1.win 2).blk t).view.emb y) = V c main_v4 i
  refine congrArg (V c main_v4) (funext fun a => Fin.ext ?_)
  match a with
  | ⟨0, _⟩ => show win1_2.index t (0 : Fin 2) * 1024 + 1 * (y 0).val = (i 0).val; omega
  | ⟨1, _⟩ => show win1_2.index t (1 : Fin 2) * 64 + 1 * (y 1).val = (i 1).val; omega

/-- The weight block at every point is the whole weight matrix. -/
theorem blk3_r1 (c : Dev nD) (t : Fin cfg1.N) (y : S64x64.Idx) :
    (iblk1 (F := Ideal) V c 3 t : Mat 64 64) y = (V c main_v10 : Mat 64 64) y := by
  obtain ⟨-, -, -, ⟨e0, e1⟩, -⟩ := idx_facts_r1 t
  show V c main_v10 (((cfg1.win 3).blk t).view.emb y) = V c main_v10 y
  refine congrArg (V c main_v10) (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The bias block at every point is the whole bias row. -/
theorem blk4_r1 (c : Dev nD) (t : Fin cfg1.N) (y : S1x64.Idx) :
    (iblk1 (F := Ideal) V c 4 t : Mat 1 64) y = (V c main_v11 : Mat 1 64) y := by
  obtain ⟨-, -, -, -, ⟨e0, e1⟩, -⟩ := idx_facts_r1 t
  show V c main_v11 (((cfg1.win 4).blk t).view.emb y) = V c main_v11 y
  refine congrArg (V c main_v11) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- What point t writes back is block t of the hidden layer of the arrays the region found. -/
theorem flushed_r1 (c : Dev nD) (t : Fin cfg1.N) :
    (dat1 (F := Ideal) V c).flushed 5 t = ((cfg1.win 5).blk t).view.read (Elt Ideal)
      (hiddenL (V c main_v0 : Mat 8192 8192) (V c main_v9 : Mat 8192 64) (V c main_v4 : Mat 8192 64) (V c main_v10 : Mat 64 64) (rowOf (V c main_v11 : Mat 1 64))) := by
  show (cfg1.win 5).cut (grid1.coords t) ((dat1 (F := Ideal) V c).after 5 t) = _
  rw [after1_5]
  unfold out1_5
  rw [View.canon_unit_zero zero_off_r1]
  simp only [View.ld_unit_zero (S := S1024x8192) zero_off_r1, View.ld_unit_zero (S := S8192x64) zero_off_r1,
    View.ld_unit_zero (S := S64x64) zero_off_r1, View.ld_unit_zero (S := S1x64) zero_off_r1,
    View.ld_unit_zero (S := S1024x64) zero_off_r1]
  rw [pay_hidden1]
  obtain ⟨-, -, -, -, -, o0, o1⟩ := idx_facts_r1 t
  funext j
  show hiddenL (iblk1 (F := Ideal) V c 0 t : Mat 1024 8192) (iblk1 (F := Ideal) V c 1 t : Mat 8192 64) (iblk1 (F := Ideal) V c 2 t : Mat 1024 64)
        (iblk1 (F := Ideal) V c 3 t : Mat 64 64) (rowOf (iblk1 (F := Ideal) V c 4 t : Mat 1 64)) j
     = hiddenL (V c main_v0 : Mat 8192 8192) (V c main_v9 : Mat 8192 64) (V c main_v4 : Mat 8192 64) (V c main_v10 : Mat 64 64) (rowOf (V c main_v11 : Mat 1 64))
        (((cfg1.win 5).blk t).view.emb j)
  refine hiddenL_band_r1 t.val (V c main_v0) (V c main_v9) (V c main_v4) (V c main_v10) (rowOf (V c main_v11 : Mat 1 64))
    (iblk1 (F := Ideal) V c 0 t) (iblk1 (F := Ideal) V c 1 t) (iblk1 (F := Ideal) V c 2 t) (iblk1 (F := Ideal) V c 3 t) (rowOf (iblk1 (F := Ideal) V c 4 t : Mat 1 64))
    (fun y i h0 h1 => blk0_r1 V c t y i h0 h1) (fun y => blk1_r1 V c t y) (fun y i h0 h1 => blk2_r1 V c t y i h0 h1)
    (fun y => blk3_r1 V c t y) (fun r => blk4_r1 V c t (ix2 0 r)) j (((cfg1.win 5).blk t).view.emb j) ?_ ?_
  · show win1_5.index t (0 : Fin 2) * 1024 + 1 * (j 0).val = 1024 * t.val + (j 0).val; omega
  · show win1_5.index t (1 : Fin 2) * 64 + 1 * (j 1).val = (j 1).val; omega

/-- An index of the output array is in point t's block iff each coordinate is in the block's range on its axis. -/
theorem mem_blk_r1 (t : Fin cfg1.N) (i : S8192x64.Idx) :
    i ∈ ((cfg1.win 5).blk t).view.set ↔ ∀ a : Fin 2, win1_5.index t a * S1024x64.size a ≤ (i a).val ∧ (i a).val < win1_5.index t a * S1024x64.size a + S1024x64.size a := by
  show i ∈ ((View.whole main_v12).slice (win1_5.rect t)).set ↔ _
  rw [View.set_slice_whole, Rect.mem_set_unit]
  exact Iff.rfl

/-- The eight bands tile the rows: row r is in the block of point r / 1024, and every point writes back. -/
theorem cover_r1 (i : S8192x64.Idx) : ∃ t : Fin cfg1.N, (cfg1.win 5).flush t = true ∧ i ∈ ((cfg1.win 5).blk t).view.set := by
  have hi0 : (i 0).val < 8192 := (i 0).isLt
  have hi1 : (i 1).val < 64 := (i 1).isLt
  have hq : (i 0).val / 1024 < cfg1.N := by rw [show cfg1.N = 8 from N_1]; omega
  obtain ⟨-, -, -, -, -, o0, o1⟩ := idx_facts_r1 ⟨(i 0).val / 1024, hq⟩
  have q0 : win1_5.index ⟨(i 0).val / 1024, hq⟩ (0 : Fin 2) = (i 0).val / 1024 := o0
  refine ⟨⟨(i 0).val / 1024, hq⟩, flush1_5 _, ?_⟩
  rw [mem_blk_r1]
  intro a
  match a with
  | ⟨0, _⟩ => show win1_5.index ⟨(i 0).val / 1024, hq⟩ (0 : Fin 2) * 1024 ≤ (i 0).val ∧ (i 0).val < win1_5.index ⟨(i 0).val / 1024, hq⟩ (0 : Fin 2) * 1024 + 1024; omega
  | ⟨1, _⟩ => show win1_5.index ⟨(i 0).val / 1024, hq⟩ (1 : Fin 2) * 64 ≤ (i 1).val ∧ (i 1).val < win1_5.index ⟨(i 0).val / 1024, hq⟩ (1 : Fin 2) * 64 + 64; omega

/-- After hidden-layer region 1 its output array holds the left-bracketed hidden layer of the arrays the region found. -/
theorem arr1 (c : Dev nD) :
    ((dat1 (F := Ideal) V c).arrAt 5 cfg1.N : Mat 8192 64)
      = hiddenL (V c main_v0 : Mat 8192 8192) (V c main_v9 : Mat 8192 64) (V c main_v4 : Mat 8192 64) (V c main_v10 : Mat 64 64) (rowOf (V c main_v11 : Mat 1 64)) :=
  (dat1 (F := Ideal) V c).arrAt_eq_of_cover 5
    (hiddenL (V c main_v0 : Mat 8192 8192) (V c main_v9 : Mat 8192 64) (V c main_v4 : Mat 8192 64) (V c main_v10 : Mat 64 64) (rowOf (V c main_v11 : Mat 1 64)))
    (fun t _ => flushed_r1 V c t) (fun i => cover_r1 i)

end Cert.GcnKernel

end
-- ==== Proof.Region2.lean ====
/-
  Hidden-layer region 2 as one whole-array function: grid point t writes rows 1024·t … 1024·t + 1023 of
  max ((A · g) · W + b + h) 0 (it reads that band of A and of h, all of g, W and b), and the eight bands tile the 8192 rows.
-/
import proofs.«114314_j52304111731095_1_alg».proof.Proof.Spec
import proofs.«114314_j52304111731095_1_alg».proof.Proof.Gen.KernelIdeal.Frame
import proofs.«114314_j52304111731095_1_alg».proof.Proof.Payload
import Idealize.ShloMosaic.Lib.Pipeline.Value
set_option maxRecDepth 16384

noncomputable section

namespace Cert.GcnKernel

open Idealize.ShloMosaic Idealize.ShloMosaic.TcCoe Idealize.ShloMosaic.ValueIdx Idealize.SL.Sem Cert.KernelIdeal Cert.KernelIdeal.Gen Cert.Gcn
open Idealize.ShloMosaic.Pipeline (Dat Cfg Window)

/-- Rows 1024·s … 1024·s + 1023 of the left-bracketed hidden layer are that layer of the same rows of the adjacency
    matrix and of the residual: entry (p, r) of the band reads only row 1024·s + p of the adjacency matrix and of the
    residual, and all of the features, the weights and the bias. -/
theorem hiddenL_band_r2 (s : Nat)
    (A : Mat 8192 8192) (g : Mat 8192 64) (h : Mat 8192 64) (W : Mat 64 64) (β : Row 64)
    (a : Mat 1024 8192) (g' : Mat 8192 64) (h' : Mat 1024 64) (W' : Mat 64 64) (β' : Row 64)
    (ha : ∀ (y : (⟨2, ![1024, 8192]⟩ : Shape).Idx) (i : (⟨2, ![8192, 8192]⟩ : Shape).Idx),
      (i 0).val = 1024 * s + (y 0).val → (i 1).val = (y 1).val → a y = A i)
    (hg : ∀ y : (⟨2, ![8192, 64]⟩ : Shape).Idx, g' y = g y)
    (hh : ∀ (y : (⟨2, ![1024, 64]⟩ : Shape).Idx) (i : (⟨2, ![8192, 64]⟩ : Shape).Idx),
      (i 0).val = 1024 * s + (y 0).val → (i 1).val = (y 1).val → h' y = h i)
    (hW : ∀ y : (⟨2, ![64, 64]⟩ : Shape).Idx, W' y = W y)
    (hβ : ∀ r : Fin 64, β' (ix1 r) = β (ix1 r))
    (j : (⟨2, ![1024, 64]⟩ : Shape).Idx) (i : (⟨2, ![8192, 64]⟩ : Shape).Idx)
    (hi0 : (i 0).val = 1024 * s + (j 0).val) (hi1 : (i 1).val = (j 1).val) :
    hiddenL a g' h' W' β' j = hiddenL A g h W β i := by
  obtain ⟨p, r, rfl⟩ : ∃ (p : Fin 1024) (r : Fin 64), j = ix2 p r := ⟨j 0, j 1, eq_ix2 j⟩
  obtain ⟨p', r', rfl⟩ : ∃ (p' : Fin 8192) (r' : Fin 64), i = ix2 p' r' := ⟨i 0, i 1, eq_ix2 i⟩
  have hp : p'.val = 1024 * s + p.val := hi0
  obtain rfl : r' = r := Fin.ext hi1
  show max ((∑ q : Fin 64, (∑ k : Fin 8192, a (ix2 p k) * g' (ix2 k q)) * W' (ix2 q r')) + β' (ix1 r') + h' (ix2 p r')) 0
     = max ((∑ q : Fin 64, (∑ k : Fin 8192, A (ix2 p' k) * g (ix2 k q)) * W (ix2 q r')) + β (ix1 r') + h (ix2 p' r')) 0
  have inner : ∀ q : Fin 64, (∑ k : Fin 8192, a (ix2 p k) * g' (ix2 k q)) = ∑ k : Fin 8192, A (ix2 p' k) * g (ix2 k q) :=
    fun q => Finset.sum_congr rfl fun k _ => by rw [ha (ix2 p k) (ix2 p' k) hp rfl, hg (ix2 k q)]
  have outer : (∑ q : Fin 64, (∑ k : Fin 8192, a (ix2 p k) * g' (ix2 k q)) * W' (ix2 q r'))
      = ∑ q : Fin 64, (∑ k : Fin 8192, A (ix2 p' k) * g (ix2 k q)) * W (ix2 q r') :=
    Finset.sum_congr rfl fun q _ => by rw [inner q, hW (ix2 q r')]
  rw [outer, hβ r', hh (ix2 p r') (ix2 p' r') hp rfl]

-- the TensorCore's buffer contents when the region is entered
variable (V : (c : Dev nD) → (b : Ref sig .tc) → Buf (Elt Ideal) ((c : Thread nD τ).loc b))

/-- The zero block offsets, however they are spelt. -/
theorem zero_off_r2 : (![0, 0] : Fin 2 → Nat) = fun _ => 0 := funext fun a => by fin_cases a <;> rfl

/-- The block index maps over the grid: the adjacency band, the residual band and the output band sit at block row t, column 0;
    the features, the weights and the bias are always block (0, 0). -/
theorem idx_facts_r2 : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

/-- The adjacency block at point t is rows 1024·t … 1024·t + 1023 of the adjacency matrix. -/
theorem blk0_r2 (c : Dev nD) (t : Fin cfg2.N) (y : S1024x8192.Idx) (i : S8192x8192.Idx)
    (h0 : (i 0).val = 1024 * t.val + (y 0).val) (h1 : (i 1).val = (y 1).val) :
    (iblk2 (F := Ideal) V c 0 t : Mat 1024 8192) y = (V c main_v0 : Mat 8192 8192) i := by
  obtain ⟨⟨e0, e1⟩, -⟩ := idx_facts_r2 t
  show V c main_v0 (((cfg2.win 0).blk t).view.emb y) = V c main_v0 i
  refine congrArg (V c main_v0) (funext fun a => Fin.ext ?_)
  match a with
  | ⟨0, _⟩ => show win2_0.index t (0 : Fin 2) * 1024 + 1 * (y 0).val = (i 0).val; omega
  | ⟨1, _⟩ => show win2_0.index t (1 : Fin 2) * 8192 + 1 * (y 1).val = (i 1).val; omega

/-- The feature block at every point is the whole feature matrix. -/
theorem blk1_r2 (c : Dev nD) (t : Fin cfg2.N) (y : S8192x64.Idx) :
    (iblk2 (F := Ideal) V c 1 t : Mat 8192 64) y = (V c main_v17 : Mat 8192 64) y := by
  obtain ⟨-, ⟨e0, e1⟩, -⟩ := idx_facts_r2 t
  show V c main_v17 (((cfg2.win 1).blk t).view.emb y) = V c main_v17 y
  refine congrArg (V c main_v17) (funext fun a => Fin.ext ?_)
  match a with
  | ⟨0, _⟩ => show win2_1.index t (0 : Fin 2) * 8192 + 1 * (y 0).val = (y 0).val; omega
  | ⟨1, _⟩ => show win2_1.index t (1 : Fin 2) * 64 + 1 * (y 1).val = (y 1).val; omega

/-- The residual block at point t is rows 1024·t … 1024·t + 1023 of the residual. -/
theorem blk2_r2 (c : Dev nD) (t : Fin cfg2.N) (y : S1024x64.Idx) (i : S8192x64.Idx)
    (h0 : (i 0).val = 1024 * t.val + (y 0).val) (h1 : (i 1).val = (y 1).val) :
    (iblk2 (F := Ideal) V c 2 t : Mat 1024 64) y = (V c main_v12 : Mat 8192 64) i := by
  obtain ⟨-, -, ⟨e0, e1⟩, -⟩ := idx_facts_r2 t
  show V c main_v12 (((cfg2.win 2).blk t).view.emb y) = V c main_v12 i
  refine congrArg (V c main_v12) (funext fun a => Fin.ext ?_)
  match a with
  | ⟨0, _⟩ => show win2_2.index t (0 : Fin 2) * 1024 + 1 * (y 0).val = (i 0).val; omega
  | ⟨1, _⟩ => show win2_2.index t (1 : Fin 2) * 64 + 1 * (y 1).val = (i 1).val; omega

/-- The weight block at every point is the whole weight matrix. -/
theorem blk3_r2 (c : Dev nD) (t : Fin cfg2.N) (y : S64x64.Idx) :
    (iblk2 (F := Ideal) V c 3 t : Mat 64 64) y = (V c main_v18 : Mat 64 64) y := by
  obtain ⟨-, -, -, ⟨e0, e1⟩, -⟩ := idx_facts_r2 t
  show V c main_v18 (((cfg2.win 3).blk t).view.emb y) = V c main_v18 y
  refine congrArg (V c main_v18) (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- The bias block at every point is the whole bias row. -/
theorem blk4_r2 (c : Dev nD) (t : Fin cfg2.N) (y : S1x64.Idx) :
    (iblk2 (F := Ideal) V c 4 t : Mat 1 64) y = (V c main_v19 : Mat 1 64) y := by
  obtain ⟨-, -, -, -, ⟨e0, e1⟩, -⟩ := idx_facts_r2 t
  show V c main_v19 (((cfg2.win 4).blk t).view.emb y) = V c main_v19 y
  refine congrArg (V c main_v19) (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- What point t writes back is block t of the hidden layer of the arrays the region found. -/
theorem flushed_r2 (c : Dev nD) (t : Fin cfg2.N) :
    (dat2 (F := Ideal) V c).flushed 5 t = ((cfg2.win 5).blk t).view.read (Elt Ideal)
      (hiddenL (V c main_v0 : Mat 8192 8192) (V c main_v17 : Mat 8192 64) (V c main_v12 : Mat 8192 64) (V c main_v18 : Mat 64 64) (rowOf (V c main_v19 : Mat 1 64))) := by
  show (cfg2.win 5).cut (grid2.coords t) ((dat2 (F := Ideal) V c).after 5 t) = _
  rw [after2_5]
  unfold out2_5
  rw [View.canon_unit_zero zero_off_r2]
  simp only [View.ld_unit_zero (S := S1024x8192) zero_off_r2, View.ld_unit_zero (S := S8192x64) zero_off_r2,
    View.ld_unit_zero (S := S64x64) zero_off_r2, View.ld_unit_zero (S := S1x64) zero_off_r2,
    View.ld_unit_zero (S := S1024x64) zero_off_r2]
  rw [pay_hidden2]
  obtain ⟨-, -, -, -, -, o0, o1⟩ := idx_facts_r2 t
  funext j
  show hiddenL (iblk2 (F := Ideal) V c 0 t : Mat 1024 8192) (iblk2 (F := Ideal) V c 1 t : Mat 8192 64) (iblk2 (F := Ideal) V c 2 t : Mat 1024 64)
        (iblk2 (F := Ideal) V c 3 t : Mat 64 64) (rowOf (iblk2 (F := Ideal) V c 4 t : Mat 1 64)) j
     = hiddenL (V c main_v0 : Mat 8192 8192) (V c main_v17 : Mat 8192 64) (V c main_v12 : Mat 8192 64) (V c main_v18 : Mat 64 64) (rowOf (V c main_v19 : Mat 1 64))
        (((cfg2.win 5).blk t).view.emb j)
  refine hiddenL_band_r2 t.val (V c main_v0) (V c main_v17) (V c main_v12) (V c main_v18) (rowOf (V c main_v19 : Mat 1 64))
    (iblk2 (F := Ideal) V c 0 t) (iblk2 (F := Ideal) V c 1 t) (iblk2 (F := Ideal) V c 2 t) (iblk2 (F := Ideal) V c 3 t) (rowOf (iblk2 (F := Ideal) V c 4 t : Mat 1 64))
    (fun y i h0 h1 => blk0_r2 V c t y i h0 h1) (fun y => blk1_r2 V c t y) (fun y i h0 h1 => blk2_r2 V c t y i h0 h1)
    (fun y => blk3_r2 V c t y) (fun r => blk4_r2 V c t (ix2 0 r)) j (((cfg2.win 5).blk t).view.emb j) ?_ ?_
  · show win2_5.index t (0 : Fin 2) * 1024 + 1 * (j 0).val = 1024 * t.val + (j 0).val; omega
  · show win2_5.index t (1 : Fin 2) * 64 + 1 * (j 1).val = (j 1).val; omega

/-- An index of the output array is in point t's block iff each coordinate is in the block's range on its axis. -/
theorem mem_blk_r2 (t : Fin cfg2.N) (i : S8192x64.Idx) :
    i ∈ ((cfg2.win 5).blk t).view.set ↔ ∀ a : Fin 2, win2_5.index t a * S1024x64.size a ≤ (i a).val ∧ (i a).val < win2_5.index t a * S1024x64.size a + S1024x64.size a := by
  show i ∈ ((View.whole main_v20).slice (win2_5.rect t)).set ↔ _
  rw [View.set_slice_whole, Rect.mem_set_unit]
  exact Iff.rfl

/-- The eight bands tile the rows: row r is in the block of point r / 1024, and every point writes back. -/
theorem cover_r2 (i : S8192x64.Idx) : ∃ t : Fin cfg2.N, (cfg2.win 5).flush t = true ∧ i ∈ ((cfg2.win 5).blk t).view.set := by
  have hi0 : (i 0).val < 8192 := (i 0).isLt
  have hi1 : (i 1).val < 64 := (i 1).isLt
  have hq : (i 0).val / 1024 < cfg2.N := by rw [show cfg2.N = 8 from N_2]; omega
  obtain ⟨-, -, -, -, -, o0, o1⟩ := idx_facts_r2 ⟨(i 0).val / 1024, hq⟩
  have q0 : win2_5.index ⟨(i 0).val / 1024, hq⟩ (0 : Fin 2) = (i 0).val / 1024 := o0
  refine ⟨⟨(i 0).val / 1024, hq⟩, flush2_5 _, ?_⟩
  rw [mem_blk_r2]
  intro a
  match a with
  | ⟨0, _⟩ => show win2_5.index ⟨(i 0).val / 1024, hq⟩ (0 : Fin 2) * 1024 ≤ (i 0).val ∧ (i 0).val < win2_5.index ⟨(i 0).val / 1024, hq⟩ (0 : Fin 2) * 1024 + 1024; omega
  | ⟨1, _⟩ => show win2_5.index ⟨(i 0).val / 1024, hq⟩ (1 : Fin 2) * 64 ≤ (i 1).val ∧ (i 1).val < win2_5.index ⟨(i 0).val / 1024, hq⟩ (1 : Fin 2) * 64 + 64; omega

/-- After hidden-layer region 2 its output array holds the left-bracketed hidden layer of the arrays the region found. -/
theorem arr2 (c : Dev nD) :
    ((dat2 (F := Ideal) V c).arrAt 5 cfg2.N : Mat 8192 64)
      = hiddenL (V c main_v0 : Mat 8192 8192) (V c main_v17 : Mat 8192 64) (V c main_v12 : Mat 8192 64) (V c main_v18 : Mat 64 64) (rowOf (V c main_v19 : Mat 1 64)) :=
  (dat2 (F := Ideal) V c).arrAt_eq_of_cover 5
    (hiddenL (V c main_v0 : Mat 8192 8192) (V c main_v17 : Mat 8192 64) (V c main_v12 : Mat 8192 64) (V c main_v18 : Mat 64 64) (rowOf (V c main_v19 : Mat 1 64)))
    (fun t _ => flushed_r2 V c t) (fun i => cover_r2 i)

end Cert.GcnKernel

end
-- ==== Proof.Region3.lean ====
/-
  Hidden-layer region 3 as one whole-array function: grid point t writes rows 1024·t … 1024·t + 1023 of
  max ((A · g) · W + b + h) 0 (it reads that band of A and of h, all of g, W and b), and the eight bands tile the 8192 rows.
-/
import proofs.«114314_j52304111731095_1_alg».proof.Proof.Spec
import proofs.«114314_j52304111731095_1_alg».proof.Proof.Gen.KernelIdeal.Frame
import proofs.«114314_j52304111731095_1_alg».proof.Proof.Payload
import Idealize.ShloMosaic.Lib.Pipeline.Value
set_option maxRecDepth 16384

noncomputable section

namespace Cert.GcnKernel

open Idealize.ShloMosaic Idealize.ShloMosaic.TcCoe Idealize.ShloMosaic.ValueIdx Idealize.SL.Sem Cert.KernelIdeal Cert.KernelIdeal.Gen Cert.Gcn
open Idealize.ShloMosaic.Pipeline (Dat Cfg Window)

/-- Rows 1024·s … 1024·s + 1023 of the left-bracketed hidden layer are that layer of the same rows of the adjacency
    matrix and of the residual: entry (p, r) of the band reads only row 1024·s + p of the adjacency matrix and of the
    residual, and all of the features, the weights and the bias. -/
theorem hiddenL_band_r3 (s : Nat)
    (A : Mat 8192 8192) (g : Mat 8192 64) (h : Mat 8192 64) (W : Mat 64 64) (β : Row 64)
    (a : Mat 1024 8192) (g' : Mat 8192 64) (h' : Mat 1024 64) (W' : Mat 64 64) (β' : Row 64)
    (ha : ∀ (y : (⟨2, ![1024, 8192]⟩ : Shape).Idx) (i : (⟨2, ![8192, 8192]⟩ : Shape).Idx),
      (i 0).val = 1024 * s + (y 0).val → (i 1).val = (y 1).val → a y = A i)
    (hg : ∀ y : (⟨2, ![8192, 64]⟩ : Shape).Idx, g' y = g y)
    (hh : ∀ (y : (⟨2, ![1024, 64]⟩ : Shape).Idx) (i : (⟨2, ![8192, 64]⟩ : Shape).Idx),
      (i 0).val = 1024 * s + (y 0).val → (i 1).val = (y 1).val → h' y = h i)
    (hW : ∀ y : (⟨2, ![64, 64]⟩ : Shape).Idx, W' y = W y)
    (hβ : ∀ r : Fin 64, β' (ix1 r) = β (ix1 r))
    (j : (⟨2, ![1024, 64]⟩ : Shape).Idx) (i : (⟨2, ![8192, 64]⟩ : Shape).Idx)
    (hi0 : (i 0).val = 1024 * s + (j 0).val) (hi1 : (i 1).val = (j 1).val) :
    hiddenL a g' h' W' β' j = hiddenL A g h W β i := by
  obtain ⟨p, r, rfl⟩ : ∃ (p : Fin 1024) (r : Fin 64), j = ix2 p r := ⟨j 0, j 1, eq_ix2 j⟩
  obtain ⟨p', r', rfl⟩ : ∃ (p' : Fin 8192) (r' : Fin 64), i = ix2 p' r' := ⟨i 0, i 1, eq_ix2 i⟩
  have hp : p'.val = 1024 * s + p.val := hi0
  obtain rfl : r' = r := Fin.ext hi1
  show max ((∑ q : Fin 64, (∑ k : Fin 8192, a (ix2 p k) * g' (ix2 k q)) * W' (ix2 q r')) + β' (ix1 r') + h' (ix2 p r')) 0
     = max ((∑ q : Fin 64, (∑ k : Fin 8192, A (ix2 p' k) * g (ix2 k q)) * W (ix2 q r')) + β (ix1 r') + h (ix2 p' r')) 0
  have inner : ∀ q : Fin 64, (∑ k : Fin 8192, a (ix2 p k) * g' (ix2 k q)) = ∑ k : Fin 8192, A (ix2 p' k) * g (ix2 k q) :=
    fun q => Finset.sum_congr rfl fun k _ => by rw [ha (ix2 p k) (ix2 p' k) hp rfl, hg (ix2 k q)]
  have outer : (∑ q : Fin 64, (∑ k : Fin 8192, a (ix2 p k) * g' (ix2 k q)) * W' (ix2 q r'))
      = ∑ q : Fin 64, (∑ k : Fin 8192, A (ix2 p' k) * g (ix2 k q)) * W (ix2 q r') :=
    Finset.sum_congr rfl fun q _ => by rw [inner q, hW (ix2 q r')]
  rw [outer, hβ r', hh (ix2 p r') (ix2 p' r') hp rfl]

-- the TensorCore's buffer contents when the region is entered
variable (V : (c : Dev nD) → (b : Ref sig .tc) → Buf (Elt Ideal) ((c : Thread nD τ).loc b))

/-- The zero block offsets, however they are spelt. -/
theorem zero_off_r3 : (![0, 0] : Fin 2 → Nat) = fun _ => 0 := funext fun a => by fin_cases a <;> rfl

/-- The block index maps over the grid: the adjacency band, the residual band and the output band sit at block row t, column 0;
    the features, the weights and the bias are always block (0, 0). -/
theorem idx_facts_r3 : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0) :=
  (by decide +kernel : ∀ t : Fin grid3.N, _)

/-- The adjacency block at point t is rows 1024·t … 1024·t + 1023 of the adjacency matrix. -/
theorem blk0_r3 (c : Dev nD) (t : Fin cfg3.N) (y : S1024x8192.Idx) (i : S8192x8192.Idx)
    (h0 : (i 0).val = 1024 * t.val + (y 0).val) (h1 : (i 1).val = (y 1).val) :
    (iblk3 (F := Ideal) V c 0 t : Mat 1024 8192) y = (V c main_v0 : Mat 8192 8192) i := by
  obtain ⟨⟨e0, e1⟩, -⟩ := idx_facts_r3 t
  show V c main_v0 (((cfg3.win 0).blk t).view.emb y) = V c main_v0 i
  refine congrArg (V c main_v0) (funext fun a => Fin.ext ?_)
  match a with
  | ⟨0, _⟩ => show win3_0.index t (0 : Fin 2) * 1024 + 1 * (y 0).val = (i 0).val; omega
  | ⟨1, _⟩ => show win3_0.index t (1 : Fin 2) * 8192 + 1 * (y 1).val = (i 1).val; omega

/-- The feature block at every point is the whole feature matrix. -/
theorem blk1_r3 (c : Dev nD) (t : Fin cfg3.N) (y : S8192x64.Idx) :
    (iblk3 (F := Ideal) V c 1 t : Mat 8192 64) y = (V c main_v25 : Mat 8192 64) y := by
  obtain ⟨-, ⟨e0, e1⟩, -⟩ := idx_facts_r3 t
  show V c main_v25 (((cfg3.win 1).blk t).view.emb y) = V c main_v25 y
  refine congrArg (V c main_v25) (funext fun a => Fin.ext ?_)
  match a with
  | ⟨0, _⟩ => show win3_1.index t (0 : Fin 2) * 8192 + 1 * (y 0).val = (y 0).val; omega
  | ⟨1, _⟩ => show win3_1.index t (1 : Fin 2) * 64 + 1 * (y 1).val = (y 1).val; omega

/-- The residual block at point t is rows 1024·t … 1024·t + 1023 of the residual. -/
theorem blk2_r3 (c : Dev nD) (t : Fin cfg3.N) (y : S1024x64.Idx) (i : S8192x64.Idx)
    (h0 : (i 0).val = 1024 * t.val + (y 0).val) (h1 : (i 1).val = (y 1).val) :
    (iblk3 (F := Ideal) V c 2 t : Mat 1024 64) y = (V c main_v20 : Mat 8192 64) i := by
  obtain ⟨-, -, ⟨e0, e1⟩, -⟩ := idx_facts_r3 t
  show V c main_v20 (((cfg3.win 2).blk t).view.emb y) = V c main_v20 i
  refine congrArg (V c main_v20) (funext fun a => Fin.ext ?_)
  match a with
  | ⟨0, _⟩ => show win3_2.index t (0 : Fin 2) * 1024 + 1 * (y 0).val = (i 0).val; omega
  | ⟨1, _⟩ => show win3_2.index t (1 : Fin 2) * 64 + 1 * (y 1).val = (i 1).val; omega

/-- The weight block at every point is the whole weight matrix. -/
theorem blk3_r3 (c : Dev nD) (t : Fin cfg3.N) (y : S64x64.Idx) :
    (iblk3 (F := Ideal) V c 3 t : Mat 64 64) y = (V c main_v26 : Mat 64 64) y := by
  obtain ⟨-, -, -, ⟨e0, e1⟩, -⟩ := idx_facts_r3 t
  show V c main_v26 (((cfg3.win 3).blk t).view.emb y) = V c main_v26 y
  refine congrArg (V c main_v26) (funext fun a => Fin.ext ?_)
  match a with
  | ⟨0, _⟩ => show win3_3.index t (0 : Fin 2) * 64 + 1 * (y 0).val = (y 0).val; omega
  | ⟨1, _⟩ => show win3_3.index t (1 : Fin 2) * 64 + 1 * (y 1).val = (y 1).val; omega

/-- The bias block at every point is the whole bias row. -/
theorem blk4_r3 (c : Dev nD) (t : Fin cfg3.N) (y : S1x64.Idx) :
    (iblk3 (F := Ideal) V c 4 t : Mat 1 64) y = (V c main_v27 : Mat 1 64) y := by
  obtain ⟨-, -, -, -, ⟨e0, e1⟩, -⟩ := idx_facts_r3 t
  show V c main_v27 (((cfg3.win 4).blk t).view.emb y) = V c main_v27 y
  refine congrArg (V c main_v27) (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- What point t writes back is block t of the hidden layer of the arrays the region found. -/
theorem flushed_r3 (c : Dev nD) (t : Fin cfg3.N) :
    (dat3 (F := Ideal) V c).flushed 5 t = ((cfg3.win 5).blk t).view.read (Elt Ideal)
      (hiddenL (V c main_v0 : Mat 8192 8192) (V c main_v25 : Mat 8192 64) (V c main_v20 : Mat 8192 64) (V c main_v26 : Mat 64 64) (rowOf (V c main_v27 : Mat 1 64))) := by
  show (cfg3.win 5).cut (grid3.coords t) ((dat3 (F := Ideal) V c).after 5 t) = _
  rw [after3_5]
  unfold out3_5
  rw [View.canon_unit_zero zero_off_r3]
  simp only [View.ld_unit_zero (S := S1024x8192) zero_off_r3, View.ld_unit_zero (S := S8192x64) zero_off_r3,
    View.ld_unit_zero (S := S64x64) zero_off_r3, View.ld_unit_zero (S := S1x64) zero_off_r3,
    View.ld_unit_zero (S := S1024x64) zero_off_r3]
  rw [pay_hidden3]
  obtain ⟨-, -, -, -, -, o0, o1⟩ := idx_facts_r3 t
  funext j
  show hiddenL (iblk3 (F := Ideal) V c 0 t : Mat 1024 8192) (iblk3 (F := Ideal) V c 1 t : Mat 8192 64) (iblk3 (F := Ideal) V c 2 t : Mat 1024 64)
        (iblk3 (F := Ideal) V c 3 t : Mat 64 64) (rowOf (iblk3 (F := Ideal) V c 4 t : Mat 1 64)) j
     = hiddenL (V c main_v0 : Mat 8192 8192) (V c main_v25 : Mat 8192 64) (V c main_v20 : Mat 8192 64) (V c main_v26 : Mat 64 64) (rowOf (V c main_v27 : Mat 1 64))
        (((cfg3.win 5).blk t).view.emb j)
  refine hiddenL_band_r3 t.val (V c main_v0) (V c main_v25) (V c main_v20) (V c main_v26) (rowOf (V c main_v27 : Mat 1 64))
    (iblk3 (F := Ideal) V c 0 t) (iblk3 (F := Ideal) V c 1 t) (iblk3 (F := Ideal) V c 2 t) (iblk3 (F := Ideal) V c 3 t) (rowOf (iblk3 (F := Ideal) V c 4 t : Mat 1 64))
    (fun y i h0 h1 => blk0_r3 V c t y i h0 h1) (fun y => blk1_r3 V c t y) (fun y i h0 h1 => blk2_r3 V c t y i h0 h1)
    (fun y => blk3_r3 V c t y) (fun r => blk4_r3 V c t (ix2 0 r)) j (((cfg3.win 5).blk t).view.emb j) ?_ ?_
  · show win3_5.index t (0 : Fin 2) * 1024 + 1 * (j 0).val = 1024 * t.val + (j 0).val; omega
  · show win3_5.index t (1 : Fin 2) * 64 + 1 * (j 1).val = (j 1).val; omega

/-- An index of the output array is in point t's block iff each coordinate is in the block's range on its axis. -/
theorem mem_blk_r3 (t : Fin cfg3.N) (i : S8192x64.Idx) :
    i ∈ ((cfg3.win 5).blk t).view.set ↔ ∀ a : Fin 2, win3_5.index t a * S1024x64.size a ≤ (i a).val ∧ (i a).val < win3_5.index t a * S1024x64.size a + S1024x64.size a := by
  show i ∈ ((View.whole main_v28).slice (win3_5.rect t)).set ↔ _
  rw [View.set_slice_whole, Rect.mem_set_unit]
  exact Iff.rfl

/-- The eight bands tile the rows: row r is in the block of point r / 1024, and every point writes back. -/
theorem cover_r3 (i : S8192x64.Idx) : ∃ t : Fin cfg3.N, (cfg3.win 5).flush t = true ∧ i ∈ ((cfg3.win 5).blk t).view.set := by
  have hi0 : (i 0).val < 8192 := (i 0).isLt
  have hi1 : (i 1).val < 64 := (i 1).isLt
  have hq : (i 0).val / 1024 < cfg3.N := by rw [show cfg3.N = 8 from N_3]; omega
  obtain ⟨-, -, -, -, -, o0, o1⟩ := idx_facts_r3 ⟨(i 0).val / 1024, hq⟩
  have q0 : win3_5.index ⟨(i 0).val / 1024, hq⟩ (0 : Fin 2) = (i 0).val / 1024 := o0
  refine ⟨⟨(i 0).val / 1024, hq⟩, flush3_5 _, ?_⟩
  rw [mem_blk_r3]
  intro a
  match a with
  | ⟨0, _⟩ => show win3_5.index ⟨(i 0).val / 1024, hq⟩ (0 : Fin 2) * 1024 ≤ (i 0).val ∧ (i 0).val < win3_5.index ⟨(i 0).val / 1024, hq⟩ (0 : Fin 2) * 1024 + 1024; omega
  | ⟨1, _⟩ => show win3_5.index ⟨(i 0).val / 1024, hq⟩ (1 : Fin 2) * 64 ≤ (i 1).val ∧ (i 1).val < win3_5.index ⟨(i 0).val / 1024, hq⟩ (1 : Fin 2) * 64 + 64; omega

/-- After hidden-layer region 3 its output array holds the left-bracketed hidden layer of the arrays the region found. -/
theorem arr3 (c : Dev nD) :
    ((dat3 (F := Ideal) V c).arrAt 5 cfg3.N : Mat 8192 64)
      = hiddenL (V c main_v0 : Mat 8192 8192) (V c main_v25 : Mat 8192 64) (V c main_v20 : Mat 8192 64) (V c main_v26 : Mat 64 64) (rowOf (V c main_v27 : Mat 1 64)) :=
  (dat3 (F := Ideal) V c).arrAt_eq_of_cover 5
    (hiddenL (V c main_v0 : Mat 8192 8192) (V c main_v25 : Mat 8192 64) (V c main_v20 : Mat 8192 64) (V c main_v26 : Mat 64 64) (rowOf (V c main_v27 : Mat 1 64)))
    (fun t _ => flushed_r3 V c t) (fun i => cover_r3 i)

end Cert.GcnKernel

end
-- ==== Proof.Region4.lean ====
/-
  The output region as one whole-array function: grid point t writes rows 1024·t … 1024·t + 1023 of max ((A · h) · W + b) 0
  (it reads that band of A, all of h, W and b), and the eight bands tile the 8192 rows.
-/
import proofs.«114314_j52304111731095_1_alg».proof.Proof.Spec
import proofs.«114314_j52304111731095_1_alg».proof.Proof.Gen.KernelIdeal.Frame
import proofs.«114314_j52304111731095_1_alg».proof.Proof.Payload
set_option maxRecDepth 16384

noncomputable section

namespace Cert.GcnKernel

open Idealize.ShloMosaic Idealize.ShloMosaic.TcCoe Idealize.ShloMosaic.ValueIdx Idealize.SL.Sem Cert.KernelIdeal Cert.KernelIdeal.Gen Cert.Gcn
open Idealize.ShloMosaic.Pipeline (Dat Cfg Window)

-- the TensorCore's buffer contents when the region is entered
variable (V : (c : Dev nD) → (b : Ref sig .tc) → Buf (Elt Ideal) ((c : Thread nD τ).loc b))

/-- The zero offsets of a whole-block access, as the constant function. -/
private theorem zero2 : (![0, 0] : Fin 2 → Nat) = fun _ => 0 := funext fun a => by fin_cases a <;> rfl

/-- The block indices over the grid: the bands of `A` and of the output move with the point along the rows; `h`, `W` and `b`
    stay at block (0, 0). -/
private theorem idx4 : ∀ t : Fin cfg4.N,
    win4_0.index t (0 : Fin 2) = t.val ∧ win4_0.index t (1 : Fin 2) = 0
  ∧ win4_1.index t (0 : Fin 2) = 0 ∧ win4_1.index t (1 : Fin 2) = 0
  ∧ win4_2.index t (0 : Fin 2) = 0 ∧ win4_2.index t (1 : Fin 2) = 0
  ∧ win4_3.index t (0 : Fin 2) = 0 ∧ win4_3.index t (1 : Fin 2) = 0
  ∧ win4_4.index t (0 : Fin 2) = t.val ∧ win4_4.index t (1 : Fin 2) = 0 :=
  (by decide +kernel : ∀ t : Fin grid4.N, _)

/-- The left-bracketed output layer at an index depends only on the row of `A`, on all of `h`, on the column of `W` and on the
    bias entry it meets: two quadruples of arrays that agree there give the same entry. -/
private theorem outL_congr {n n' k d e e' : Nat} (A : Mat n k) (h : Mat k d) (W : Mat d e) (β : Mat 1 e)
    (A' : Mat n' k) (h' : Mat k d) (W' : Mat d e') (β' : Mat 1 e')
    (j : (⟨2, ![n, e]⟩ : Shape).Idx) (i : (⟨2, ![n', e']⟩ : Shape).Idx)
    (hA : ∀ q : Fin k, A (ix2 (j 0) q) = A' (ix2 (i 0) q))
    (hh : ∀ (q : Fin k) (p : Fin d), h (ix2 q p) = h' (ix2 q p))
    (hW : ∀ p : Fin d, W (ix2 p (j 1)) = W' (ix2 p (i 1)))
    (hβ : β (ix2 0 (j 1)) = β' (ix2 0 (i 1))) :
    outL A h W (rowOf β) j = outL A' h' W' (rowOf β') i := by
  unfold outL mm rowOf
  show max ((∑ p : Fin d, (∑ q : Fin k, A (ix2 (j 0) q) * h (ix2 q p)) * W (ix2 p (j 1))) + β (ix2 0 (j 1))) 0
    = max ((∑ p : Fin d, (∑ q : Fin k, A' (ix2 (i 0) q) * h' (ix2 q p)) * W' (ix2 p (i 1))) + β' (ix2 0 (i 1))) 0
  rw [hβ]
  refine congrArg (fun s => max (s + _) 0) (Finset.sum_congr rfl fun p _ => ?_)
  rw [hW p]
  exact congrArg (· * _) (Finset.sum_congr rfl fun q _ => by rw [hA q, hh q p])

/-- What grid point `t` writes back is band `t` of the output layer: the stored block is the output layer of the loaded blocks,
    the loaded band of `A` is rows 1024·t … of `A`, and `h`, `W`, `b` are loaded whole. -/
private theorem flushed4 (c : Dev nD) (t : Fin cfg4.N) :
    (dat4 (F := Ideal) V c).flushed 4 t = ((cfg4.win 4).blk t).view.read (Elt Ideal)
      (outL (V c main_v0 : Mat 8192 8192) (V c main_v29 : Mat 8192 64) (V c main_v30 : Mat 64 40) (rowOf (V c main_v31 : Mat 1 40))) := by
  show (cfg4.win 4).cut (grid4.coords t) ((dat4 V c).after 4 t) = _
  rw [after4_4]
  unfold out4_4
  rw [View.canon_unit_zero zero2]
  simp only [View.ld_unit_zero (S := S1024x8192) zero2, View.ld_unit_zero (S := S8192x64) zero2, View.ld_unit_zero (S := S64x40) zero2,
    View.ld_unit_zero (S := S1x40) zero2]
  refine (congrArg ((win4 4).cut (grid4.coords t)) (pay_out (iblk4 V c 0 t) (iblk4 V c 1 t) (iblk4 V c 2 t) (iblk4 V c 3 t))).trans ?_
  obtain ⟨e00, e01, e10, e11, e20, e21, e30, e31, e40, e41⟩ := idx4 t
  funext j
  show outL (iblk4 V c 0 t : Mat 1024 8192) (iblk4 V c 1 t : Mat 8192 64) (iblk4 V c 2 t : Mat 64 40) (rowOf (iblk4 V c 3 t : Mat 1 40)) j
    = outL (V c main_v0 : Mat 8192 8192) (V c main_v29 : Mat 8192 64) (V c main_v30 : Mat 64 40) (rowOf (V c main_v31 : Mat 1 40))
        (((cfg4.win 4).blk t).view.emb j)
  refine outL_congr (n := 1024) (n' := 8192) (k := 8192) (d := 64) (e := 40) (e' := 40)
    (iblk4 V c 0 t) (iblk4 V c 1 t) (iblk4 V c 2 t) (iblk4 V c 3 t)
    (V c main_v0) (V c main_v29) (V c main_v30) (V c main_v31) j (((cfg4.win 4).blk t).view.emb j) ?_ ?_ ?_ ?_
  · intro q
    show V c main_v0 (((cfg4.win 0).blk t).view.emb (ix2 (j 0) q)) = V c main_v0 (ix2 ((((cfg4.win 4).blk t).view.emb j) 0) q)
    refine congrArg (V c main_v0) ?_
    funext a; apply Fin.ext
    match a with
    | ⟨0, _⟩ => show win4_0.index t (0 : Fin 2) * 1024 + 1 * (j 0).val = win4_4.index t (0 : Fin 2) * 1024 + 1 * (j 0).val; omega
    | ⟨1, _⟩ => show win4_0.index t (1 : Fin 2) * 8192 + 1 * q.val = q.val; omega
  · intro q p
    show V c main_v29 (((cfg4.win 1).blk t).view.emb (ix2 q p)) = V c main_v29 (ix2 q p)
    refine congrArg (V c main_v29) ?_
    funext a; apply Fin.ext
    match a with
    | ⟨0, _⟩ => show win4_1.index t (0 : Fin 2) * 8192 + 1 * q.val = q.val; omega
    | ⟨1, _⟩ => show win4_1.index t (1 : Fin 2) * 64 + 1 * p.val = p.val; omega
  · intro p
    show V c main_v30 (((cfg4.win 2).blk t).view.emb (ix2 p (j 1))) = V c main_v30 (ix2 p ((((cfg4.win 4).blk t).view.emb j) 1))
    refine congrArg (V c main_v30) ?_
    funext a; apply Fin.ext
    match a with
    | ⟨0, _⟩ => show win4_2.index t (0 : Fin 2) * 64 + 1 * p.val = p.val; omega
    | ⟨1, _⟩ => show win4_2.index t (1 : Fin 2) * 40 + 1 * (j 1).val = win4_4.index t (1 : Fin 2) * 40 + 1 * (j 1).val; omega
  · show V c main_v31 (((cfg4.win 3).blk t).view.emb (ix2 0 (j 1))) = V c main_v31 (ix2 0 ((((cfg4.win 4).blk t).view.emb j) 1))
    refine congrArg (V c main_v31) ?_
    funext a; apply Fin.ext
    match a with
    | ⟨0, _⟩ => show win4_3.index t (0 : Fin 2) * 1 + 1 * 0 = 0; omega
    | ⟨1, _⟩ => show win4_3.index t (1 : Fin 2) * 40 + 1 * (j 1).val = win4_4.index t (1 : Fin 2) * 40 + 1 * (j 1).val; omega

/-- An index of the output array is in point `t`'s block iff each coordinate is in the block's range on its axis. -/
private theorem mem_blk4 (t : Fin cfg4.N) (i : S8192x40.Idx) :
    i ∈ ((cfg4.win 4).blk t).view.set ↔ ∀ a : Fin 2, win4_4.index t a * S1024x40.size a ≤ (i a).val ∧ (i a).val < win4_4.index t a * S1024x40.size a + S1024x40.size a := by
  show i ∈ ((View.whole main_v32).slice (win4_4.rect t)).set ↔ _
  rw [View.set_slice_whole, Rect.mem_set_unit]
  exact Iff.rfl

/-- Row `r` lies in the band of point `r / 1024`: the eight bands tile the 8192 rows. -/
private theorem cover4 (i : S8192x40.Idx) : ∃ t : Fin cfg4.N, (cfg4.win 4).flush t = true ∧ i ∈ ((cfg4.win 4).blk t).view.set := by
  have hi0 : (i 0).val < 8192 := (i 0).isLt
  have hi1 : (i 1).val < 40 := (i 1).isLt
  have hN : cfg4.N = 8 := N_4
  let t : Fin cfg4.N := ⟨(i 0).val / 1024, by rw [hN]; omega⟩
  obtain ⟨e00, e01, e10, e11, e20, e21, e30, e31, e40, e41⟩ := idx4 t
  have ht : t.val = (i 0).val / 1024 := rfl
  refine ⟨t, flush4_4 t, ?_⟩
  rw [mem_blk4]
  intro a
  match a with
  | ⟨0, _⟩ => show win4_4.index t (0 : Fin 2) * 1024 ≤ (i 0).val ∧ (i 0).val < win4_4.index t (0 : Fin 2) * 1024 + 1024; omega
  | ⟨1, _⟩ => show win4_4.index t (1 : Fin 2) * 40 ≤ (i 1).val ∧ (i 1).val < win4_4.index t (1 : Fin 2) * 40 + 40; omega

/-- After the output region its output array holds the left-bracketed output layer of the arrays the region found. -/
theorem arr4 (c : Dev nD) :
    ((dat4 (F := Ideal) V c).arrAt 4 cfg4.N : Mat 8192 40)
      = outL (V c main_v0 : Mat 8192 8192) (V c main_v29 : Mat 8192 64) (V c main_v30 : Mat 64 40) (rowOf (V c main_v31 : Mat 1 40)) :=
  (dat4 (F := Ideal) V c).arrAt_eq_of_cover 4
    (outL (V c main_v0 : Mat 8192 8192) (V c main_v29 : Mat 8192 64) (V c main_v30 : Mat 64 40) (rowOf (V c main_v31 : Mat 1 40)))
    (fun t _ => flushed4 V c t) cover4

end Cert.GcnKernel

end
-- ==== Proof.HostStages.lean ====
/-
  What each region finds in its operand arrays, read back through the host operations between the regions to the launch
  memory: a change of float format is the identity on the extended reals, a reshape `[64] → [1, 64]` keeps the entries, and
  the slice `[l : l + 1]` of the stacked weights followed by a reshape is layer `l`'s matrix; an array no host operation
  and no region writes keeps its contents from where it was made.
-/
import proofs.«114314_j52304111731095_1_alg».proof.Proof.Spec
import proofs.«114314_j52304111731095_1_alg».proof.Proof.Gen.KernelIdeal.Frame
import Idealize.ShloMosaic.PureOps.Ideal.Laws
import Idealize.ShloMosaic.Lib.Pipeline.Value
import Idealize.ShloMosaic.Lib.ValueLayout
import Idealize.ShloMosaic.Lib.StableHlo.Run
set_option maxRecDepth 16384

noncomputable section

namespace Cert.GcnKernel

open Idealize.ShloMosaic Idealize.ShloMosaic.TcCoe Idealize.ShloMosaic.ValueIdx Idealize.SL.Sem Cert.KernelIdeal Cert.KernelIdeal.Gen Cert.Gcn

variable (m : (ℓ : Loc nD τ sig) → Buf (Elt Ideal) ℓ) (ρ : Dev nD → PrngReg)

/-- No operation of a stretch writes the buffer: each operation's one result buffer is another reference. -/
local macro "unwritten" : tactic =>
  `(tactic| (refine List.forall_iff_forall_mem.mp ?_
             simp only [hostOps0, hostOps1, hostOps2, hostOps3, hostOps4, List.Forall, StableHlo.unary_writes,
               StableHlo.reshape_writes, Finset.mem_singleton]
             repeat' apply And.intro
             all_goals exact StableHlo.devRef_ne_of_ne (by decide)))

namespace HostStages

/-! ## General facts: a change of float format, a unit axis added or dropped, one layer cut out of a stack -/

/-- On the extended reals a change of float format keeps every entry. -/
theorem truncf_ideal {s : Shape} {φ ψ : FTy} (a : FVec Ideal s φ) (h : ψ.bits < φ.bits) :
    (truncf ψ a h : FVec Ideal s ψ) = a := rfl

/-- A vector given a leading unit axis, read back as a row, is the vector. -/
theorem rowOf_shapeCast {b : Nat} (v : Row b) (h : (⟨1, ![b]⟩ : Shape).ShapeCasts ⟨2, ![1, b]⟩) :
    rowOf (shapeCast (⟨2, ![1, b]⟩ : Shape) v h) = v := by
  funext i
  exact (shapeCast_a_1a_apply v h 0 (i 0)).trans (congrArg v (eq_ix1 i).symm)

/-- The slice `[l : l + 1]` of a stack of matrices, its unit axis dropped, is matrix `l` of the stack:
    entry `(p, q)` of the result is entry `(0, p, q)` of the slice, which is entry `(l, p, q)` of the stack. -/
theorem layerW_of_slice (l : Fin 3) (W3 : Cube 3 64 64) (off : Fin 3 → Nat) (h0 : off 0 = l.val) (h1 : off 1 = 0) (h2 : off 2 = 0)
    (hs : (⟨3, ![3, 64, 64]⟩ : Shape).Slices off ⟨3, ![1, 64, 64]⟩)
    (hc : (⟨3, ![1, 64, 64]⟩ : Shape).ShapeCasts ⟨2, ![64, 64]⟩) :
    shapeCast (⟨2, ![64, 64]⟩ : Shape) (extractStridedSlice (⟨3, ![1, 64, 64]⟩ : Shape) off W3 hs) hc = layerW l W3 := by
  funext i
  have hi : i = ix2 (i 0) (i 1) := eq_ix2 i
  rw [hi]
  refine (shapeCast_1ab_ab_apply _ hc (i 0) (i 1)).trans ?_
  refine extractStridedSlice_apply off W3 hs _ (ix3 l (i 0) (i 1)) fun a => ?_
  match a with
  | ⟨0, _⟩ => show l.val = off 0 + 0; omega
  | ⟨1, _⟩ => show (i 0).val = off 1 + (i 0).val; omega
  | ⟨2, _⟩ => show (i 1).val = off 2 + (i 1).val; omega

/-- The slice `[l : l + 1]` of a stack of vectors, flattened and given its unit axis back, read as a row is vector `l`. -/
theorem layerB_of_slice (l : Fin 3) (b3 : Mat 3 64) (off : Fin 2 → Nat) (h0 : off 0 = l.val) (h1 : off 1 = 0)
    (hs : (⟨2, ![3, 64]⟩ : Shape).Slices off ⟨2, ![1, 64]⟩)
    (hc1 : (⟨2, ![1, 64]⟩ : Shape).ShapeCasts ⟨1, ![64]⟩) (hc2 : (⟨1, ![64]⟩ : Shape).ShapeCasts ⟨2, ![1, 64]⟩) :
    rowOf (shapeCast (⟨2, ![1, 64]⟩ : Shape)
      (shapeCast (⟨1, ![64]⟩ : Shape) (extractStridedSlice (⟨2, ![1, 64]⟩ : Shape) off b3 hs) hc1) hc2) = layerB l b3 := by
  rw [rowOf_shapeCast]
  funext i
  have hi : i = ix1 (i 0) := eq_ix1 i
  rw [hi]
  refine (shapeCast_1a_a_apply _ hc1 (i 0)).trans ?_
  refine extractStridedSlice_apply off b3 hs _ (ix2 l (i 0)) fun a => ?_
  match a with
  | ⟨0, _⟩ => show l.val = off 0 + 0; omega
  | ⟨1, _⟩ => show (i 0).val = off 1 + (i 0).val; omega

/-! ## A buffer nothing writes keeps its launch contents

Each host operation writes one result buffer and each region rewrites only its own arrays, so a buffer that is none of
these holds at every boundary what it held at launch. -/

section Walk
variable (c : Dev nD) (b : Ref sig .tc)

theorem W2_launch (h0 : ∀ op ∈ (hostOps0 : List (HloOp τ sig (Elt Ideal))), Proc.devRef .tc b ∉ op.writes)
    (s0 : ∀ w, Pipeline.arrRef spec0 w ≠ b) :
    W2 (F := Ideal) m ρ c (Proc.devRef .tc b) = m ((c : Thread nD τ).loc b) :=
  (W2_of_ne m ρ c b s0).trans (StableHlo.after_of_forall_not_mem (b := Proc.devRef .tc b) _ _ h0)

theorem W4_launch (h0 : ∀ op ∈ (hostOps0 : List (HloOp τ sig (Elt Ideal))), Proc.devRef .tc b ∉ op.writes)
    (s0 : ∀ w, Pipeline.arrRef spec0 w ≠ b)
    (h1 : ∀ op ∈ (hostOps1 : List (HloOp τ sig (Elt Ideal))), Proc.devRef .tc b ∉ op.writes)
    (s1 : ∀ w, Pipeline.arrRef spec1 w ≠ b) :
    W4 (F := Ideal) m ρ c (Proc.devRef .tc b) = m ((c : Thread nD τ).loc b) :=
  (W4_of_ne m ρ c b s1).trans ((StableHlo.after_of_forall_not_mem (b := Proc.devRef .tc b) _ _ h1).trans
    (W2_launch m ρ c b h0 s0))

theorem W6_launch (h0 : ∀ op ∈ (hostOps0 : List (HloOp τ sig (Elt Ideal))), Proc.devRef .tc b ∉ op.writes)
    (s0 : ∀ w, Pipeline.arrRef spec0 w ≠ b)
    (h1 : ∀ op ∈ (hostOps1 : List (HloOp τ sig (Elt Ideal))), Proc.devRef .tc b ∉ op.writes)
    (s1 : ∀ w, Pipeline.arrRef spec1 w ≠ b)
    (h2 : ∀ op ∈ (hostOps2 : List (HloOp τ sig (Elt Ideal))), Proc.devRef .tc b ∉ op.writes)
    (s2 : ∀ w, Pipeline.arrRef spec2 w ≠ b) :
    W6 (F := Ideal) m ρ c (Proc.devRef .tc b) = m ((c : Thread nD τ).loc b) :=
  (W6_of_ne m ρ c b s2).trans ((StableHlo.after_of_forall_not_mem (b := Proc.devRef .tc b) _ _ h2).trans
    (W4_launch m ρ c b h0 s0 h1 s1))

theorem W8_launch (h0 : ∀ op ∈ (hostOps0 : List (HloOp τ sig (Elt Ideal))), Proc.devRef .tc b ∉ op.writes)
    (s0 : ∀ w, Pipeline.arrRef spec0 w ≠ b)
    (h1 : ∀ op ∈ (hostOps1 : List (HloOp τ sig (Elt Ideal))), Proc.devRef .tc b ∉ op.writes)
    (s1 : ∀ w, Pipeline.arrRef spec1 w ≠ b)
    (h2 : ∀ op ∈ (hostOps2 : List (HloOp τ sig (Elt Ideal))), Proc.devRef .tc b ∉ op.writes)
    (s2 : ∀ w, Pipeline.arrRef spec2 w ≠ b)
    (h3 : ∀ op ∈ (hostOps3 : List (HloOp τ sig (Elt Ideal))), Proc.devRef .tc b ∉ op.writes)
    (s3 : ∀ w, Pipeline.arrRef spec3 w ≠ b) :
    W8 (F := Ideal) m ρ c (Proc.devRef .tc b) = m ((c : Thread nD τ).loc b) :=
  (W8_of_ne m ρ c b s3).trans ((StableHlo.after_of_forall_not_mem (b := Proc.devRef .tc b) _ _ h3).trans
    (W6_launch m ρ c b h0 s0 h1 s1 h2 s2))

end Walk

/-- The stacked weights at hidden layer 0's host stretch are the launch's. -/
theorem W2_arg5 (c : Dev nD) : W2 (F := Ideal) m ρ c (Proc.devRef .tc main_arg5) = m ((c : Thread nD τ).loc main_arg5) :=
  W2_launch m ρ c main_arg5 (by unwritten) (by decide)
theorem W2_arg6 (c : Dev nD) : W2 (F := Ideal) m ρ c (Proc.devRef .tc main_arg6) = m ((c : Thread nD τ).loc main_arg6) :=
  W2_launch m ρ c main_arg6 (by unwritten) (by decide)
theorem W4_arg5 (c : Dev nD) : W4 (F := Ideal) m ρ c (Proc.devRef .tc main_arg5) = m ((c : Thread nD τ).loc main_arg5) :=
  W4_launch m ρ c main_arg5 (by unwritten) (by decide) (by unwritten) (by decide)
theorem W4_arg6 (c : Dev nD) : W4 (F := Ideal) m ρ c (Proc.devRef .tc main_arg6) = m ((c : Thread nD τ).loc main_arg6) :=
  W4_launch m ρ c main_arg6 (by unwritten) (by decide) (by unwritten) (by decide)
theorem W6_arg5 (c : Dev nD) : W6 (F := Ideal) m ρ c (Proc.devRef .tc main_arg5) = m ((c : Thread nD τ).loc main_arg5) :=
  W6_launch m ρ c main_arg5 (by unwritten) (by decide) (by unwritten) (by decide) (by unwritten) (by decide)
theorem W6_arg6 (c : Dev nD) : W6 (F := Ideal) m ρ c (Proc.devRef .tc main_arg6) = m ((c : Thread nD τ).loc main_arg6) :=
  W6_launch m ρ c main_arg6 (by unwritten) (by decide) (by unwritten) (by decide) (by unwritten) (by decide)
theorem W8_arg7 (c : Dev nD) : W8 (F := Ideal) m ρ c (Proc.devRef .tc main_arg7) = m ((c : Thread nD τ).loc main_arg7) :=
  W8_launch m ρ c main_arg7 (by unwritten) (by decide) (by unwritten) (by decide) (by unwritten) (by decide) (by unwritten) (by decide)
theorem W8_arg8 (c : Dev nD) : W8 (F := Ideal) m ρ c (Proc.devRef .tc main_arg8) = m ((c : Thread nD τ).loc main_arg8) :=
  W8_launch m ρ c main_arg8 (by unwritten) (by decide) (by unwritten) (by decide) (by unwritten) (by decide) (by unwritten) (by decide)

/-- The adjacency matrix in its second float format, as the first host stretch leaves it. -/
theorem W1_v0 (c : Dev nD) : W1 (F := Ideal) m ρ c (Proc.devRef .tc main_v0) = m ((c : Thread nD τ).loc main_arg1) := by
  show StableHlo.after hostOps0 (W0 m ρ c) (Proc.devRef .tc main_v0) = _
  after_results
  rfl

end HostStages

open HostStages

/-! ## The projection region's operands -/

theorem in0_x (c : Dev nD) : (V1 (F := Ideal) m ρ c main_v1 : Mat 8192 1024) = (m ((c : Thread nD τ).loc main_arg0) : Mat 8192 1024) := by
  show StableHlo.after hostOps0 (W0 m ρ c) (Proc.devRef .tc main_v1) = _
  after_results
  rfl
theorem in0_W (c : Dev nD) : (V1 (F := Ideal) m ρ c main_v2 : Mat 1024 64) = (m ((c : Thread nD τ).loc main_arg3) : Mat 1024 64) := by
  show StableHlo.after hostOps0 (W0 m ρ c) (Proc.devRef .tc main_v2) = _
  after_results
  rfl
theorem in0_b (c : Dev nD) : rowOf (V1 (F := Ideal) m ρ c main_v3 : Mat 1 64) = (m ((c : Thread nD τ).loc main_arg4) : Row 64) := by
  have e : (V1 (F := Ideal) m ρ c main_v3 : Mat 1 64)
      = shapeCast S1x64 (m ((c : Thread nD τ).loc main_arg4) : Row 64) shapeCasts_S64_S1x64 := by
    show StableHlo.after hostOps0 (W0 m ρ c) (Proc.devRef .tc main_v3) = _
    after_results
    rfl
  rw [e]
  exact rowOf_shapeCast _ _

/-! ## Hidden layer 0's operands -/

theorem in1_A (c : Dev nD) : (V3 (F := Ideal) m ρ c main_v0 : Mat 8192 8192) = (m ((c : Thread nD τ).loc main_arg1) : Mat 8192 8192) :=
  (StableHlo.after_of_forall_not_mem (b := Proc.devRef .tc main_v0) _ _ (by unwritten)).trans
    ((W2_of_ne m ρ c main_v0 (by decide)).trans (W1_v0 m ρ c))
theorem in1_g (c : Dev nD) : (V3 (F := Ideal) m ρ c main_v9 : Mat 8192 64) = ((dat0 (F := Ideal) (V1 m ρ) c).arrAt 3 cfg0.N : Mat 8192 64) := by
  have e : (V3 (F := Ideal) m ρ c main_v9 : Mat 8192 64)
      = truncf (F := Ideal) .bf16 (W2 (F := Ideal) m ρ c (Proc.devRef .tc main_v4) : FVec Ideal S8192x64 .f32) bitsLt_bf16_f32 := by
    show StableHlo.after hostOps1 (W2 m ρ c) (Proc.devRef .tc main_v9) = _
    after_results
  rw [e, truncf_ideal]
  exact W2_arr m ρ c 3
theorem in1_h (c : Dev nD) : (V3 (F := Ideal) m ρ c main_v4 : Mat 8192 64) = ((dat0 (F := Ideal) (V1 m ρ) c).arrAt 3 cfg0.N : Mat 8192 64) :=
  (StableHlo.after_of_forall_not_mem (b := Proc.devRef .tc main_v4) _ _ (by unwritten)).trans (W2_arr m ρ c 3)
theorem in1_W (c : Dev nD) : (V3 (F := Ideal) m ρ c main_v10 : Mat 64 64) = layerW 0 (m ((c : Thread nD τ).loc main_arg5) : Cube 3 64 64) := by
  have e : (V3 (F := Ideal) m ρ c main_v10 : Mat 64 64)
      = truncf (F := Ideal) .bf16 (shapeCast S64x64 (extractStridedSlice S1x64x64 ![0, 0, 0]
          (W2 (F := Ideal) m ρ c (Proc.devRef .tc main_arg5) : FVec Ideal S3x64x64 .f32) slices_S3x64x64_S1x64x64_0_0_0) shapeCasts_S1x64x64_S64x64) bitsLt_bf16_f32 := by
    show StableHlo.after hostOps1 (W2 m ρ c) (Proc.devRef .tc main_v10) = _
    after_results
    rfl
  rw [e, W2_arg5, truncf_ideal]
  exact layerW_of_slice 0 _ ![0, 0, 0] rfl rfl rfl _ _
theorem in1_b (c : Dev nD) : rowOf (V3 (F := Ideal) m ρ c main_v11 : Mat 1 64) = layerB 0 (m ((c : Thread nD τ).loc main_arg6) : Mat 3 64) := by
  have e : (V3 (F := Ideal) m ρ c main_v11 : Mat 1 64)
      = shapeCast S1x64 (shapeCast S64 (extractStridedSlice S1x64 ![0, 0]
          (W2 (F := Ideal) m ρ c (Proc.devRef .tc main_arg6)) slices_S3x64_S1x64_0_0) shapeCasts_S1x64_S64) shapeCasts_S64_S1x64 := by
    show StableHlo.after hostOps1 (W2 m ρ c) (Proc.devRef .tc main_v11) = _
    after_results
    rfl
  rw [e, W2_arg6]
  exact layerB_of_slice 0 _ ![0, 0] rfl rfl _ _ _

/-! ## Hidden layer 1's operands -/

theorem in2_A (c : Dev nD) : (V5 (F := Ideal) m ρ c main_v0 : Mat 8192 8192) = (m ((c : Thread nD τ).loc main_arg1) : Mat 8192 8192) :=
  (StableHlo.after_of_forall_not_mem (b := Proc.devRef .tc main_v0) _ _ (by unwritten)).trans
    ((W4_arr m ρ c 0).trans ((Pipeline.Dat.arrAt_in (dat1 (F := Ideal) (V3 m ρ) c) 0 rfl _).trans
      ((A_eq1 _ c 0).trans (in1_A m ρ c))))
theorem in2_g (c : Dev nD) : (V5 (F := Ideal) m ρ c main_v17 : Mat 8192 64) = ((dat1 (F := Ideal) (V3 m ρ) c).arrAt 5 cfg1.N : Mat 8192 64) := by
  have e : (V5 (F := Ideal) m ρ c main_v17 : Mat 8192 64)
      = truncf (F := Ideal) .bf16 (W4 (F := Ideal) m ρ c (Proc.devRef .tc main_v12) : FVec Ideal S8192x64 .f32) bitsLt_bf16_f32 := by
    show StableHlo.after hostOps2 (W4 m ρ c) (Proc.devRef .tc main_v17) = _
    after_results
  rw [e, truncf_ideal]
  exact W4_arr m ρ c 5
theorem in2_h (c : Dev nD) : (V5 (F := Ideal) m ρ c main_v12 : Mat 8192 64) = ((dat1 (F := Ideal) (V3 m ρ) c).arrAt 5 cfg1.N : Mat 8192 64) :=
  (StableHlo.after_of_forall_not_mem (b := Proc.devRef .tc main_v12) _ _ (by unwritten)).trans (W4_arr m ρ c 5)
theorem in2_W (c : Dev nD) : (V5 (F := Ideal) m ρ c main_v18 : Mat 64 64) = layerW 1 (m ((c : Thread nD τ).loc main_arg5) : Cube 3 64 64) := by
  have e : (V5 (F := Ideal) m ρ c main_v18 : Mat 64 64)
      = truncf (F := Ideal) .bf16 (shapeCast S64x64 (extractStridedSlice S1x64x64 ![1, 0, 0]
          (W4 (F := Ideal) m ρ c (Proc.devRef .tc main_arg5) : FVec Ideal S3x64x64 .f32) slices_S3x64x64_S1x64x64_1_0_0) shapeCasts_S1x64x64_S64x64) bitsLt_bf16_f32 := by
    show StableHlo.after hostOps2 (W4 m ρ c) (Proc.devRef .tc main_v18) = _
    after_results
    rfl
  rw [e, W4_arg5, truncf_ideal]
  exact layerW_of_slice 1 _ ![1, 0, 0] rfl rfl rfl _ _
theorem in2_b (c : Dev nD) : rowOf (V5 (F := Ideal) m ρ c main_v19 : Mat 1 64) = layerB 1 (m ((c : Thread nD τ).loc main_arg6) : Mat 3 64) := by
  have e : (V5 (F := Ideal) m ρ c main_v19 : Mat 1 64)
      = shapeCast S1x64 (shapeCast S64 (extractStridedSlice S1x64 ![1, 0]
          (W4 (F := Ideal) m ρ c (Proc.devRef .tc main_arg6)) slices_S3x64_S1x64_1_0) shapeCasts_S1x64_S64) shapeCasts_S64_S1x64 := by
    show StableHlo.after hostOps2 (W4 m ρ c) (Proc.devRef .tc main_v19) = _
    after_results
    rfl
  rw [e, W4_arg6]
  exact layerB_of_slice 1 _ ![1, 0] rfl rfl _ _ _

/-! ## Hidden layer 2's operands -/

theorem in3_A (c : Dev nD) : (V7 (F := Ideal) m ρ c main_v0 : Mat 8192 8192) = (m ((c : Thread nD τ).loc main_arg1) : Mat 8192 8192) :=
  (StableHlo.after_of_forall_not_mem (b := Proc.devRef .tc main_v0) _ _ (by unwritten)).trans
    ((W6_arr m ρ c 0).trans ((Pipeline.Dat.arrAt_in (dat2 (F := Ideal) (V5 m ρ) c) 0 rfl _).trans
      ((A_eq2 _ c 0).trans (in2_A m ρ c))))
theorem in3_g (c : Dev nD) : (V7 (F := Ideal) m ρ c main_v25 : Mat 8192 64) = ((dat2 (F := Ideal) (V5 m ρ) c).arrAt 5 cfg2.N : Mat 8192 64) := by
  have e : (V7 (F := Ideal) m ρ c main_v25 : Mat 8192 64)
      = truncf (F := Ideal) .bf16 (W6 (F := Ideal) m ρ c (Proc.devRef .tc main_v20) : FVec Ideal S8192x64 .f32) bitsLt_bf16_f32 := by
    show StableHlo.after hostOps3 (W6 m ρ c) (Proc.devRef .tc main_v25) = _
    after_results
  rw [e, truncf_ideal]
  exact W6_arr m ρ c 5
theorem in3_h (c : Dev nD) : (V7 (F := Ideal) m ρ c main_v20 : Mat 8192 64) = ((dat2 (F := Ideal) (V5 m ρ) c).arrAt 5 cfg2.N : Mat 8192 64) :=
  (StableHlo.after_of_forall_not_mem (b := Proc.devRef .tc main_v20) _ _ (by unwritten)).trans (W6_arr m ρ c 5)
theorem in3_W (c : Dev nD) : (V7 (F := Ideal) m ρ c main_v26 : Mat 64 64) = layerW 2 (m ((c : Thread nD τ).loc main_arg5) : Cube 3 64 64) := by
  have e : (V7 (F := Ideal) m ρ c main_v26 : Mat 64 64)
      = truncf (F := Ideal) .bf16 (shapeCast S64x64 (extractStridedSlice S1x64x64 ![2, 0, 0]
          (W6 (F := Ideal) m ρ c (Proc.devRef .tc main_arg5) : FVec Ideal S3x64x64 .f32) slices_S3x64x64_S1x64x64_2_0_0) shapeCasts_S1x64x64_S64x64) bitsLt_bf16_f32 := by
    show StableHlo.after hostOps3 (W6 m ρ c) (Proc.devRef .tc main_v26) = _
    after_results
    rfl
  rw [e, W6_arg5, truncf_ideal]
  exact layerW_of_slice 2 _ ![2, 0, 0] rfl rfl rfl _ _
theorem in3_b (c : Dev nD) : rowOf (V7 (F := Ideal) m ρ c main_v27 : Mat 1 64) = layerB 2 (m ((c : Thread nD τ).loc main_arg6) : Mat 3 64) := by
  have e : (V7 (F := Ideal) m ρ c main_v27 : Mat 1 64)
      = shapeCast S1x64 (shapeCast S64 (extractStridedSlice S1x64 ![2, 0]
          (W6 (F := Ideal) m ρ c (Proc.devRef .tc main_arg6)) slices_S3x64_S1x64_2_0) shapeCasts_S1x64_S64) shapeCasts_S64_S1x64 := by
    show StableHlo.after hostOps3 (W6 m ρ c) (Proc.devRef .tc main_v27) = _
    after_results
    rfl
  rw [e, W6_arg6]
  exact layerB_of_slice 2 _ ![2, 0] rfl rfl _ _ _

/-! ## The output layer's operands -/

theorem in4_A (c : Dev nD) : (V9 (F := Ideal) m ρ c main_v0 : Mat 8192 8192) = (m ((c : Thread nD τ).loc main_arg1) : Mat 8192 8192) :=
  (StableHlo.after_of_forall_not_mem (b := Proc.devRef .tc main_v0) _ _ (by unwritten)).trans
    ((W8_arr m ρ c 0).trans ((Pipeline.Dat.arrAt_in (dat3 (F := Ideal) (V7 m ρ) c) 0 rfl _).trans
      ((A_eq3 _ c 0).trans (in3_A m ρ c))))
theorem in4_h (c : Dev nD) : (V9 (F := Ideal) m ρ c main_v29 : Mat 8192 64) = ((dat3 (F := Ideal) (V7 m ρ) c).arrAt 5 cfg3.N : Mat 8192 64) := by
  have e : (V9 (F := Ideal) m ρ c main_v29 : Mat 8192 64)
      = truncf (F := Ideal) .bf16 (W8 (F := Ideal) m ρ c (Proc.devRef .tc main_v28) : FVec Ideal S8192x64 .f32) bitsLt_bf16_f32 := by
    show StableHlo.after hostOps4 (W8 m ρ c) (Proc.devRef .tc main_v29) = _
    after_results
  rw [e, truncf_ideal]
  exact W8_arr m ρ c 5
theorem in4_W (c : Dev nD) : (V9 (F := Ideal) m ρ c main_v30 : Mat 64 40) = (m ((c : Thread nD τ).loc main_arg7) : Mat 64 40) := by
  have e : (V9 (F := Ideal) m ρ c main_v30 : Mat 64 40)
      = truncf (F := Ideal) .bf16 (W8 (F := Ideal) m ρ c (Proc.devRef .tc main_arg7) : FVec Ideal S64x40 .f32) bitsLt_bf16_f32 := by
    show StableHlo.after hostOps4 (W8 m ρ c) (Proc.devRef .tc main_v30) = _
    after_results
  rw [e, truncf_ideal]
  exact W8_arg7 m ρ c
theorem in4_b (c : Dev nD) : rowOf (V9 (F := Ideal) m ρ c main_v31 : Mat 1 40) = (m ((c : Thread nD τ).loc main_arg8) : Row 40) := by
  have e : (V9 (F := Ideal) m ρ c main_v31 : Mat 1 40)
      = shapeCast S1x40 (W8 (F := Ideal) m ρ c (Proc.devRef .tc main_arg8)) shapeCasts_S40_S1x40 := by
    show StableHlo.after hostOps4 (W8 m ρ c) (Proc.devRef .tc main_v31) = _
    after_results
    rfl
  rw [e, W8_arg8]
  exact rowOf_shapeCast _ _

end Cert.GcnKernel

end
-- ==== Proof.KernelValue.lean ====
/-
  The kernel program's result array, after the run, is the left-bracketed network of the launch memory's argument arrays:
  the five regions' whole-array functions composed through what each region finds in its operands.
-/
import proofs.«114314_j52304111731095_1_alg».proof.Proof.Spec
import proofs.«114314_j52304111731095_1_alg».proof.Proof.Region0
import proofs.«114314_j52304111731095_1_alg».proof.Proof.Region1
import proofs.«114314_j52304111731095_1_alg».proof.Proof.Region2
import proofs.«114314_j52304111731095_1_alg».proof.Proof.Region3
import proofs.«114314_j52304111731095_1_alg».proof.Proof.Region4
import proofs.«114314_j52304111731095_1_alg».proof.Proof.HostStages
set_option maxRecDepth 16384

noncomputable section

namespace Cert.GcnKernel

open Idealize.ShloMosaic Idealize.ShloMosaic.TcCoe Idealize.ShloMosaic.ValueIdx Idealize.SL.Sem Cert.KernelIdeal Cert.KernelIdeal.Gen Cert.Gcn

variable (m : (ℓ : Loc nD τ sig) → Buf (Elt Ideal) ℓ) (ρ : Dev nD → PrngReg)

/-- The result buffer's contents at the last boundary of the run. -/
theorem result_eq (c : Dev nD) :
    (W10 (F := Ideal) m ρ c (Proc.devRef .tc main_v32) : Mat 8192 40)
      = netL (m ((c : Thread nD τ).loc main_arg0) : Mat 8192 1024) (m ((c : Thread nD τ).loc main_arg1) : Mat 8192 8192) (m ((c : Thread nD τ).loc main_arg3) : Mat 1024 64) (m ((c : Thread nD τ).loc main_arg4) : Row 64)
          (m ((c : Thread nD τ).loc main_arg5) : Cube 3 64 64) (m ((c : Thread nD τ).loc main_arg6) : Mat 3 64) (m ((c : Thread nD τ).loc main_arg7) : Mat 64 40) (m ((c : Thread nD τ).loc main_arg8) : Row 40) := by
  -- the result array is region 4's output; each region's output is its whole-array function of what it found, and what
  -- it found are the launch arrays and the region before's output
  have e4 : (W10 (F := Ideal) m ρ c (Proc.devRef .tc main_v32)) = (dat4 (F := Ideal) (V9 m ρ) c).arrAt 4 cfg4.N := W10_arr m ρ c 4
  refine e4.trans ?_
  rw [arr4 (V9 m ρ) c, in4_A, in4_h, in4_W, in4_b,
    arr3 (V7 m ρ) c, in3_A, in3_g, in3_h, in3_W, in3_b,
    arr2 (V5 m ρ) c, in2_A, in2_g, in2_h, in2_W, in2_b,
    arr1 (V3 m ρ) c, in1_A, in1_g, in1_h, in1_W, in1_b,
    arr0 (V1 m ρ) c, in0_x, in0_W, in0_b]
  rfl

end Cert.GcnKernel

end
-- ==== Proof.RefValue.lean ====
/-
  The reference program's result, read one operation at a time, is the right-bracketed network of its argument arrays:
  each `dot_general` is a sum of products over its one contracted axis, a broadcast of a bias along the rows reads the bias
  at the column, a slice of the stacked weights followed by a reshape is one layer's matrix, and `relu` is the maximum with
  zero.
-/
import proofs.«114314_j52304111731095_1_alg».proof.Proof.Spec
import proofs.«114314_j52304111731095_1_alg».proof.Proof.Gen.ReferenceIdeal.Read
import Idealize.ShloMosaic.PureOps.Ideal.Laws

set_option maxRecDepth 16384

noncomputable section

namespace Cert.GcnReference

open Idealize.ShloMosaic Idealize.ShloMosaic.TcCoe Idealize.ShloMosaic.ValueIdx Idealize.SL.Sem Cert.ReferenceIdeal Cert.ReferenceIdeal.Gen Cert.Gcn

section Stages

/- The eight argument arrays, named as the network names them: the node features `X`, the adjacency matrix `A`, the input
   projection `W1`, `b1`, the three hidden layers' stacked weights `W3` and biases `b3`, and the output layer `Wo`, `bo`. -/
variable (X : (⟨S8192x1024, .f32⟩ : BufTy).Contents (Elt Ideal)) (A : (⟨S8192x8192, .f32⟩ : BufTy).Contents (Elt Ideal))
  (W1 : (⟨S1024x64, .f32⟩ : BufTy).Contents (Elt Ideal)) (b1 : (⟨S64, .f32⟩ : BufTy).Contents (Elt Ideal))
  (W3 : (⟨S3x64x64, .f32⟩ : BufTy).Contents (Elt Ideal)) (b3 : (⟨S3x64, .f32⟩ : BufTy).Contents (Elt Ideal))
  (Wo : (⟨S64x40, .f32⟩ : BufTy).Contents (Elt Ideal)) (bo : (⟨S40, .f32⟩ : BufTy).Contents (Elt Ideal))

/-! ## The input projection -/

/-- Entry `(p, q)` of the projected features is `∑ₖ X p k · W1 k q` plus the bias at column `q`: the bias vector is first made
    a one-row matrix and that row is then repeated down the rows, so reading it at `(p, q)` reads the vector at `q`. -/
theorem affine_stage :
    (Read.val_main_v3 (F := Ideal) X W1 b1 : Mat 8192 64) = affine (X : Mat 8192 1024) (W1 : Mat 1024 64) (b1 : Row 64) := by
  funext i
  have eX : ∀ k, Read.lidx_main_v0 i k = (ix2 (i 0) k : S8192x1024.Idx) :=
    fun k => funext fun a => Fin.ext (by match a with | ⟨0, _⟩ => rfl | ⟨1, _⟩ => rfl)
  have eW : ∀ k, Read.ridx_main_v0 i k = (ix2 k (i 1) : S1024x64.Idx) :=
    fun k => funext fun a => Fin.ext (by match a with | ⟨0, _⟩ => rfl | ⟨1, _⟩ => rfl)
  have eb : Read.idx_main_v1 (Read.idx_main_v2 i) = (ix1 (i 1) : S64.Idx) :=
    funext fun a => Fin.ext (by match a with | ⟨0, _⟩ => rfl)
  rw [Read.val_main_v3_apply, Read.val_main_v0_apply, Read.val_main_v2_apply, Read.val_main_v1_apply]
  simp only [eX, eW, eb, Ideal.addf_def]
  rfl

/-! ## One layer's weights and bias out of the stacks

A layer's matrix is cut out of the stack as a `1 × 64 × 64` block and that block is then read as a `64 × 64` matrix. Entry
`(p, q)` of the matrix sits at flat position `p * 64 + q` of the block, and since `q < 64` that position splits back into
`p` (the quotient by 64) and `q` (the remainder). The bias is the same with one axis fewer. -/

/-- The first hidden layer's matrix. -/
theorem layerW_stage0 : (Read.val_main_v5 (F := Ideal) W3 : Mat 64 64) = layerW 0 (W3 : Cube 3 64 64) := by
  funext i
  have e : Read.idx_main_v4 (Read.idx_main_v5 i) = (ix3 (0 : Fin 3) (i 0) (i 1) : S3x64x64.Idx) := funext fun a => Fin.ext (by
    have hp : (i 0).val < 64 := (i 0).isLt
    have hq : (i 1).val < 64 := (i 1).isLt
    match a with
    | ⟨0, _⟩ => rfl
    | ⟨1, _⟩ => show ((i 0).val * 64 + (i 1).val) / 64 % 64 = (i 0).val; omega
    | ⟨2, _⟩ => show ((i 0).val * 64 + (i 1).val) % 64 = (i 1).val; omega)
  rw [Read.val_main_v5_apply, Read.val_main_v4_apply, e]
  rfl

/-- The second hidden layer's matrix: the block starts one row down the stack. -/
theorem layerW_stage1 : (Read.val_main_v16 (F := Ideal) W3 : Mat 64 64) = layerW 1 (W3 : Cube 3 64 64) := by
  funext i
  have e : Read.idx_main_v15 (Read.idx_main_v16 i) = (ix3 (1 : Fin 3) (i 0) (i 1) : S3x64x64.Idx) := funext fun a => Fin.ext (by
    have hp : (i 0).val < 64 := (i 0).isLt
    have hq : (i 1).val < 64 := (i 1).isLt
    match a with
    | ⟨0, _⟩ => rfl
    | ⟨1, _⟩ => show ((i 0).val * 64 + (i 1).val) / 64 % 64 = (i 0).val; omega
    | ⟨2, _⟩ => show ((i 0).val * 64 + (i 1).val) % 64 = (i 1).val; omega)
  rw [Read.val_main_v16_apply, Read.val_main_v15_apply, e]
  rfl

/-- The third hidden layer's matrix: the block starts two rows down the stack. -/
theorem layerW_stage2 : (Read.val_main_v27 (F := Ideal) W3 : Mat 64 64) = layerW 2 (W3 : Cube 3 64 64) := by
  funext i
  have e : Read.idx_main_v26 (Read.idx_main_v27 i) = (ix3 (2 : Fin 3) (i 0) (i 1) : S3x64x64.Idx) := funext fun a => Fin.ext (by
    have hp : (i 0).val < 64 := (i 0).isLt
    have hq : (i 1).val < 64 := (i 1).isLt
    match a with
    | ⟨0, _⟩ => rfl
    | ⟨1, _⟩ => show ((i 0).val * 64 + (i 1).val) / 64 % 64 = (i 0).val; omega
    | ⟨2, _⟩ => show ((i 0).val * 64 + (i 1).val) % 64 = (i 1).val; omega)
  rw [Read.val_main_v27_apply, Read.val_main_v26_apply, e]
  rfl

/-- The first hidden layer's bias: row 0 of the stack, cut out as a `1 × 64` block and read as a vector. -/
theorem layerB_stage0 : (Read.val_main_v9 (F := Ideal) b3 : Row 64) = layerB 0 (b3 : Mat 3 64) := by
  funext i
  have e : Read.idx_main_v8 (Read.idx_main_v9 i) = (ix2 (0 : Fin 3) (i 0) : S3x64.Idx) := funext fun a => Fin.ext (by
    have hq : (i 0).val < 64 := (i 0).isLt
    match a with
    | ⟨0, _⟩ => rfl
    | ⟨1, _⟩ => show (i 0).val % 64 = (i 0).val; omega)
  rw [Read.val_main_v9_apply, Read.val_main_v8_apply, e]
  rfl

/-- The second hidden layer's bias: row 1 of the stack. -/
theorem layerB_stage1 : (Read.val_main_v20 (F := Ideal) b3 : Row 64) = layerB 1 (b3 : Mat 3 64) := by
  funext i
  have e : Read.idx_main_v19 (Read.idx_main_v20 i) = (ix2 (1 : Fin 3) (i 0) : S3x64.Idx) := funext fun a => Fin.ext (by
    have hq : (i 0).val < 64 := (i 0).isLt
    match a with
    | ⟨0, _⟩ => rfl
    | ⟨1, _⟩ => show (i 0).val % 64 = (i 0).val; omega)
  rw [Read.val_main_v20_apply, Read.val_main_v19_apply, e]
  rfl

/-- The third hidden layer's bias: row 2 of the stack. -/
theorem layerB_stage2 : (Read.val_main_v31 (F := Ideal) b3 : Row 64) = layerB 2 (b3 : Mat 3 64) := by
  funext i
  have e : Read.idx_main_v30 (Read.idx_main_v31 i) = (ix2 (2 : Fin 3) (i 0) : S3x64.Idx) := funext fun a => Fin.ext (by
    have hq : (i 0).val < 64 := (i 0).isLt
    match a with
    | ⟨0, _⟩ => rfl
    | ⟨1, _⟩ => show (i 0).val % 64 = (i 0).val; omega)
  rw [Read.val_main_v31_apply, Read.val_main_v30_apply, e]
  rfl

/-! ## The hidden layers

Each hidden layer first multiplies the incoming features `h` by the layer's matrix, then multiplies the adjacency matrix by
that product: entry `(p, q)` is `∑ₖ A p k · (∑ᵣ h k r · W r q)`. To it are added the bias at column `q` and the incoming
entry `h p q`, and the result is cut off below at zero. The incoming features are kept as one unnamed matrix `h` while the
layer is read, so that nothing about the earlier layers is looked into. -/

/-- The first hidden layer, on the projected features. -/
theorem hidden_stage0 :
    (Read.val_main_v14 (F := Ideal) X A W1 b1 W3 b3 : Mat 8192 64)
      = hiddenR (A : Mat 8192 8192) (Read.val_main_v3 (F := Ideal) X W1 b1 : Mat 8192 64) (layerW 0 (W3 : Cube 3 64 64))
          (layerB 0 (b3 : Mat 3 64)) := by
  funext i
  have eA : ∀ k, Read.lidx_main_v7 i k = (ix2 (i 0) k : S8192x8192.Idx) :=
    fun k => funext fun a => Fin.ext (by match a with | ⟨0, _⟩ => rfl | ⟨1, _⟩ => rfl)
  have eP : ∀ k, Read.ridx_main_v7 i k = (ix2 k (i 1) : S8192x64.Idx) :=
    fun k => funext fun a => Fin.ext (by match a with | ⟨0, _⟩ => rfl | ⟨1, _⟩ => rfl)
  have eh : ∀ (j : S8192x64.Idx) r, Read.lidx_main_v6 j r = (ix2 (j 0) r : S8192x64.Idx) :=
    fun j r => funext fun a => Fin.ext (by match a with | ⟨0, _⟩ => rfl | ⟨1, _⟩ => rfl)
  have eW : ∀ (j : S8192x64.Idx) r, Read.ridx_main_v6 j r = (ix2 r (j 1) : S64x64.Idx) :=
    fun j r => funext fun a => Fin.ext (by match a with | ⟨0, _⟩ => rfl | ⟨1, _⟩ => rfl)
  have eb : Read.idx_main_v10 (Read.idx_main_v11 i) = (ix1 (i 1) : S64.Idx) :=
    funext fun a => Fin.ext (by match a with | ⟨0, _⟩ => rfl)
  rw [Read.val_main_v14_apply, Read.val_main_v13_apply, Read.val_main_v12_apply, Read.val_main_v7_apply, Read.val_main_v11_apply,
    Read.val_main_v10_apply, Read.val_main_call0_v0_apply, Read.val_main_call0_cst_apply]
  simp only [Read.val_main_v6_apply]
  generalize Read.val_main_v3 (F := Ideal) X W1 b1 = h
  simp only [eA, eP, eh, eW, eb, layerW_stage0, layerB_stage0, Ideal.maximumf_def, Ideal.addf_def, Ideal.ofBits_def,
    Ideal.ofBits_zero_f32]
  rfl

/-- The second hidden layer, on the first one's output. -/
theorem hidden_stage1 :
    (Read.val_main_v25 (F := Ideal) X A W1 b1 W3 b3 : Mat 8192 64)
      = hiddenR (A : Mat 8192 8192) (Read.val_main_v14 (F := Ideal) X A W1 b1 W3 b3 : Mat 8192 64) (layerW 1 (W3 : Cube 3 64 64))
          (layerB 1 (b3 : Mat 3 64)) := by
  funext i
  have eA : ∀ k, Read.lidx_main_v18 i k = (ix2 (i 0) k : S8192x8192.Idx) :=
    fun k => funext fun a => Fin.ext (by match a with | ⟨0, _⟩ => rfl | ⟨1, _⟩ => rfl)
  have eP : ∀ k, Read.ridx_main_v18 i k = (ix2 k (i 1) : S8192x64.Idx) :=
    fun k => funext fun a => Fin.ext (by match a with | ⟨0, _⟩ => rfl | ⟨1, _⟩ => rfl)
  have eh : ∀ (j : S8192x64.Idx) r, Read.lidx_main_v17 j r = (ix2 (j 0) r : S8192x64.Idx) :=
    fun j r => funext fun a => Fin.ext (by match a with | ⟨0, _⟩ => rfl | ⟨1, _⟩ => rfl)
  have eW : ∀ (j : S8192x64.Idx) r, Read.ridx_main_v17 j r = (ix2 r (j 1) : S64x64.Idx) :=
    fun j r => funext fun a => Fin.ext (by match a with | ⟨0, _⟩ => rfl | ⟨1, _⟩ => rfl)
  have eb : Read.idx_main_v21 (Read.idx_main_v22 i) = (ix1 (i 1) : S64.Idx) :=
    funext fun a => Fin.ext (by match a with | ⟨0, _⟩ => rfl)
  rw [Read.val_main_v25_apply, Read.val_main_v24_apply, Read.val_main_v23_apply, Read.val_main_v18_apply, Read.val_main_v22_apply,
    Read.val_main_v21_apply, Read.val_main_call1_v0_apply, Read.val_main_call1_cst_apply]
  simp only [Read.val_main_v17_apply]
  generalize Read.val_main_v14 (F := Ideal) X A W1 b1 W3 b3 = h
  simp only [eA, eP, eh, eW, eb, layerW_stage1, layerB_stage1, Ideal.maximumf_def, Ideal.addf_def, Ideal.ofBits_def,
    Ideal.ofBits_zero_f32]
  rfl

/-- The third hidden layer, on the second one's output. -/
theorem hidden_stage2 :
    (Read.val_main_v36 (F := Ideal) X A W1 b1 W3 b3 : Mat 8192 64)
      = hiddenR (A : Mat 8192 8192) (Read.val_main_v25 (F := Ideal) X A W1 b1 W3 b3 : Mat 8192 64) (layerW 2 (W3 : Cube 3 64 64))
          (layerB 2 (b3 : Mat 3 64)) := by
  funext i
  have eA : ∀ k, Read.lidx_main_v29 i k = (ix2 (i 0) k : S8192x8192.Idx) :=
    fun k => funext fun a => Fin.ext (by match a with | ⟨0, _⟩ => rfl | ⟨1, _⟩ => rfl)
  have eP : ∀ k, Read.ridx_main_v29 i k = (ix2 k (i 1) : S8192x64.Idx) :=
    fun k => funext fun a => Fin.ext (by match a with | ⟨0, _⟩ => rfl | ⟨1, _⟩ => rfl)
  have eh : ∀ (j : S8192x64.Idx) r, Read.lidx_main_v28 j r = (ix2 (j 0) r : S8192x64.Idx) :=
    fun j r => funext fun a => Fin.ext (by match a with | ⟨0, _⟩ => rfl | ⟨1, _⟩ => rfl)
  have eW : ∀ (j : S8192x64.Idx) r, Read.ridx_main_v28 j r = (ix2 r (j 1) : S64x64.Idx) :=
    fun j r => funext fun a => Fin.ext (by match a with | ⟨0, _⟩ => rfl | ⟨1, _⟩ => rfl)
  have eb : Read.idx_main_v32 (Read.idx_main_v33 i) = (ix1 (i 1) : S64.Idx) :=
    funext fun a => Fin.ext (by match a with | ⟨0, _⟩ => rfl)
  rw [Read.val_main_v36_apply, Read.val_main_v35_apply, Read.val_main_v34_apply, Read.val_main_v29_apply, Read.val_main_v33_apply,
    Read.val_main_v32_apply, Read.val_main_call2_v0_apply, Read.val_main_call2_cst_apply]
  simp only [Read.val_main_v28_apply]
  generalize Read.val_main_v25 (F := Ideal) X A W1 b1 W3 b3 = h
  simp only [eA, eP, eh, eW, eb, layerW_stage2, layerB_stage2, Ideal.maximumf_def, Ideal.addf_def, Ideal.ofBits_def,
    Ideal.ofBits_zero_f32]
  rfl

/-! ## The output layer -/

/-- The output layer has the same triple product with the `64 × 40` output matrix and the bias at the column, no residual, and
    the same cut at zero. Its matrix and bias are arguments of the program, so no slice is read here. -/
theorem out_stage :
    (Read.val_main_v42 (F := Ideal) X A W1 b1 W3 b3 Wo bo : Mat 8192 40)
      = outR (A : Mat 8192 8192) (Read.val_main_v36 (F := Ideal) X A W1 b1 W3 b3 : Mat 8192 64) (Wo : Mat 64 40) (bo : Row 40) := by
  funext i
  have eA : ∀ k, Read.lidx_main_v38 i k = (ix2 (i 0) k : S8192x8192.Idx) :=
    fun k => funext fun a => Fin.ext (by match a with | ⟨0, _⟩ => rfl | ⟨1, _⟩ => rfl)
  have eP : ∀ k, Read.ridx_main_v38 i k = (ix2 k (i 1) : S8192x40.Idx) :=
    fun k => funext fun a => Fin.ext (by match a with | ⟨0, _⟩ => rfl | ⟨1, _⟩ => rfl)
  have eh : ∀ (j : S8192x40.Idx) r, Read.lidx_main_v37 j r = (ix2 (j 0) r : S8192x64.Idx) :=
    fun j r => funext fun a => Fin.ext (by match a with | ⟨0, _⟩ => rfl | ⟨1, _⟩ => rfl)
  have eW : ∀ (j : S8192x40.Idx) r, Read.ridx_main_v37 j r = (ix2 r (j 1) : S64x40.Idx) :=
    fun j r => funext fun a => Fin.ext (by match a with | ⟨0, _⟩ => rfl | ⟨1, _⟩ => rfl)
  have eb : Read.idx_main_v39 (Read.idx_main_v40 i) = (ix1 (i 1) : S40.Idx) :=
    funext fun a => Fin.ext (by match a with | ⟨0, _⟩ => rfl)
  rw [Read.val_main_v42_apply, Read.val_main_v41_apply, Read.val_main_v38_apply, Read.val_main_v40_apply, Read.val_main_v39_apply,
    Read.val_main_call3_v0_apply, Read.val_main_call3_cst_apply]
  simp only [Read.val_main_v37_apply]
  generalize Read.val_main_v36 (F := Ideal) X A W1 b1 W3 b3 = h
  simp only [eA, eP, eh, eW, eb, Ideal.maximumf_def, Ideal.addf_def, Ideal.ofBits_def, Ideal.ofBits_zero_f32]
  rfl

end Stages

/-- The reference run's result term is the right-bracketed network of the argument arrays. -/
theorem ref_eq (m : (ℓ : Loc nD τ sig) → Buf (Elt Ideal) ℓ) (c : Dev nD) :
    (Cert.ReferenceIdeal.Value.res_main_v42 (F := Ideal) m c : Mat 8192 40)
      = netR (m ((c.tc : Thread nD τ).loc main_arg0) : Mat 8192 1024) (m ((c.tc : Thread nD τ).loc main_arg1) : Mat 8192 8192) (m ((c.tc : Thread nD τ).loc main_arg3) : Mat 1024 64) (m ((c.tc : Thread nD τ).loc main_arg4) : Row 64)
          (m ((c.tc : Thread nD τ).loc main_arg5) : Cube 3 64 64) (m ((c.tc : Thread nD τ).loc main_arg6) : Mat 3 64) (m ((c.tc : Thread nD τ).loc main_arg7) : Mat 64 40) (m ((c.tc : Thread nD τ).loc main_arg8) : Row 40) := by
  -- the layers one after another, outermost first; what is left is the network's definition with its `let`s opened
  rw [Read.val_main_v42_eq, out_stage, hidden_stage2, hidden_stage1, hidden_stage0, affine_stage]
  rfl

end Cert.GcnReference

end
-- ==== Proof.Finite.lean ====
/-
  From the precondition to the hypothesis of the joining law: `finite_inputs` says that every entry of every float argument
  has absolute value below +∞, and an extended real with that property is a real number.
-/
import proofs.«114314_j52304111731095_1_alg».proof.Proof.Spec
import proofs.«114314_j52304111731095_1_alg».proof.Defs
import proofs.«114314_j52304111731095_1_alg».proof.Proof.Gen.Pre_finite_inputs
import Idealize.ShloMosaic.PureOps.Ideal.Laws
import Idealize.ShloMosaic.Lib.ReduceAll

noncomputable section

namespace Cert.GcnFinite

open Idealize.ShloMosaic Idealize.ShloMosaic.TcCoe Idealize.ShloMosaic.ValueIdx Idealize.SL.Sem Cert.KernelIdeal Cert.Gcn

/-- The scalar shape has one index. -/
instance subsingleton_scalarIdx : Subsingleton (Cert.Pre_finite_inputs.S_).Idx := ⟨fun a b => funext fun d => d.elim0⟩

/-- The bit pattern `0x7F800000` denotes `+∞`. -/
theorem ofBits_inf : Ideal.ofBits .f32 0x7F800000#32 = (⊤ : EReal) := by
  simp [Ideal.ofBits, Ideal.ieee]

/-- An extended real whose absolute value `max a (-a)` is below `+∞` is a real number: it is neither `+∞` (then `a` itself
    is not below) nor `-∞` (then `-a` is not). -/
theorem exists_real_of_abs_lt_top {a : EReal} (h : max a (-a) < ⊤) : ∃ r : ℝ, a = (r : EReal) := by
  obtain ⟨h1, h2⟩ := max_lt_iff.1 h
  have hb : a ≠ ⊥ := by
    rintro rfl
    simp at h2
  exact ⟨a.toReal, (EReal.coe_toReal (ne_of_lt h1) hb).symm⟩

/-- One conjunct of the precondition read back: if "every `|x i|` is below `+∞`", folded by `and` into one bit, is 1,
    then every entry of `x` is a real number. -/
theorem allReal_of_all_lt {s : Shape} {axes : List (Fin s.rank)} (x : FVec Ideal s .f32)
    (hb : (Cert.Pre_finite_inputs.S_).BroadcastsInDim s (![] : Fin 0 → Fin s.rank))
    (hr : s.ReducesTo axes Cert.Pre_finite_inputs.S_) (hu : 0 < (Cert.Pre_finite_inputs.S_).numel)
    (init : IVec Cert.Pre_finite_inputs.S_ 1)
    (e : Host.reduce IntOp.andi
        (cmpf .olt (Host.absf x) (broadcastInDim s ![] hb (constant Cert.Pre_finite_inputs.S_ .f32 0x7F800000#32)))
        init hr hu ix0 = 1#1) :
    AllReal (S := s) x := by
  intro i
  have h1 := Host.reduce_andi_all _ init hr hu ix0 e i
  have h2 : Ideal.cmp .olt (max (x i) (-(x i))) (Ideal.ofBits .f32 0x7F800000#32) = 1#1 := h1
  rw [ofBits_inf] at h2
  refine exists_real_of_abs_lt_top ?_
  by_contra hn
  simp [Ideal.cmp, hn] at h2

/-- Under the precondition every argument array the network reads holds real numbers only. -/
theorem allReal_of_pre [hPre : Cert.Pre_finite_inputs.Facts] (m : (ℓ : Loc nD τ sig) → Buf (Elt Ideal) ℓ) (hm : Cert.Pre_KernelIdeal m) (c : Dev nD) :
    AllReal (m ((c.tc : Thread nD τ).loc main_arg0) : Mat 8192 1024) ∧ AllReal (m ((c.tc : Thread nD τ).loc main_arg1) : Mat 8192 8192) ∧ AllReal (m ((c.tc : Thread nD τ).loc main_arg3) : Mat 1024 64)
    ∧ AllReal (m ((c.tc : Thread nD τ).loc main_arg4) : Row 64) ∧ AllReal (m ((c.tc : Thread nD τ).loc main_arg5) : Cube 3 64 64) ∧ AllReal (m ((c.tc : Thread nD τ).loc main_arg6) : Mat 3 64)
    ∧ AllReal (m ((c.tc : Thread nD τ).loc main_arg7) : Mat 64 40) ∧ AllReal (m ((c.tc : Thread nD τ).loc main_arg8) : Row 40) := by
  have h := congrFun (hm c) ix0
  dsimp only [Cert.Pre_finite_inputs.fn, Cert.Pre_finite_inputs.fn_part1, Cert.Pre_finite_inputs.fn_part2,
    Idealize.ShloMosaic.andi] at h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact ⟨allReal_of_all_lt _ _ _ _ _ e0, allReal_of_all_lt _ _ _ _ _ e1, allReal_of_all_lt _ _ _ _ _ e3,
    allReal_of_all_lt _ _ _ _ _ e4, allReal_of_all_lt _ _ _ _ _ e5, allReal_of_all_lt _ _ _ _ _ e6,
    allReal_of_all_lt _ _ _ _ _ e7, allReal_of_all_lt _ _ _ _ _ e8⟩

end Cert.GcnFinite

end
-- ==== Proof.lean ====
/-
  The certificate of a graph-convolution network kernel against its reference, over the extended reals.

  Both programs compute, on 8192 nodes, an affine projection `h₀ = x · W₁ + b₁`, three hidden layers
  `hₗ₊₁ = max (A · hₗ · Wₗ + bₗ + hₗ) 0` and an output layer `max (A · h₃ · Wₒ + bₒ) 0`. The kernel program runs five
  pipelined regions, each writing its output in eight bands of 1024 rows, and forms every triple product as `(A · h) · W`;
  the reference forms `A · (h · W)`. At the ideal values a change of float format is the identity and a matrix product
  is the plain sum of products, so the kernel's result array is the left-bracketed network of the launch arrays
  (`Cert.GcnKernel.result_eq`) and the reference's the right-bracketed one (`Cert.GcnReference.ref_eq`). The two agree
  because the precondition makes every input entry a real number (`Cert.GcnFinite.allReal_of_pre`), and over the reals
  the matrix product is associative (`Cert.Gcn.netL_eq_netR`); with an infinite entry the distributive law behind that
  associativity fails, which is why the precondition is used.
  The three frames are the generated frame certificates (the reference's is its generated run with the result dropped);
  the ideal pass rewrote nothing, so `preserves` has nothing to show.
-/
import proofs.«114314_j52304111731095_1_alg».proof.Defs
import proofs.«114314_j52304111731095_1_alg».proof.Proof.Gen.Kernel
import proofs.«114314_j52304111731095_1_alg».proof.Proof.Gen.Kernel.Skeleton
import proofs.«114314_j52304111731095_1_alg».proof.Proof.Gen.Kernel.Launch
import proofs.«114314_j52304111731095_1_alg».proof.Proof.Gen.Kernel.Points
import proofs.«114314_j52304111731095_1_alg».proof.Proof.Gen.Kernel.Frame
import proofs.«114314_j52304111731095_1_alg».proof.Proof.Gen.KernelIdeal
import proofs.«114314_j52304111731095_1_alg».proof.Proof.Gen.KernelIdeal.Skeleton
import proofs.«114314_j52304111731095_1_alg».proof.Proof.Gen.KernelIdeal.Launch
import proofs.«114314_j52304111731095_1_alg».proof.Proof.Gen.KernelIdeal.Points
import proofs.«114314_j52304111731095_1_alg».proof.Proof.Gen.KernelIdeal.Frame
import proofs.«114314_j52304111731095_1_alg».proof.Proof.Gen.ReferenceIdeal
import proofs.«114314_j52304111731095_1_alg».proof.Proof.Gen.ReferenceIdeal.Run
import proofs.«114314_j52304111731095_1_alg».proof.Proof.Gen.Pre_finite_inputs
import proofs.«114314_j52304111731095_1_alg».proof.Proof.Spec
import proofs.«114314_j52304111731095_1_alg».proof.Proof.KernelRun
import proofs.«114314_j52304111731095_1_alg».proof.Proof.KernelValue
import proofs.«114314_j52304111731095_1_alg».proof.Proof.RefValue
import proofs.«114314_j52304111731095_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the same result array: the kernel's is the
    left-bracketed network of its arguments, the reference's the right-bracketed network of the same arrays, and the two
    bracketings agree on real entries, which the precondition provides. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v32),
    Cert.KernelIdeal.GenRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, a3, a4, a5, a6, a7, a8⟩ := hagree c
  obtain ⟨r0, r1, r3, r4, r5, r6, r7, r8⟩ := Cert.GcnFinite.allReal_of_pre m hpre c
  refine (Cert.GcnReference.ref_eq m' c).trans ?_
  rw [a0, a1, a3, a4, a5, a6, a7, a8]
  refine Eq.trans ?_ (Cert.GcnKernel.result_eq m ρ c).symm
  exact (Cert.Gcn.netL_eq_netR _ _ _ _ _ _ _ _ r0 r1 r3 r4 r5 r6 r7 r8).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
